-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x512 : Shape := ⟨3, ![8192, 1, 512]⟩
abbrev S8192x1x1024 : Shape := ⟨3, ![8192, 1, 1024]⟩
abbrev S512x256 : Shape := ⟨2, ![512, 256]⟩
abbrev S768x1024 : Shape := ⟨2, ![768, 1024]⟩
abbrev S1024 : Shape := ⟨1, ![1024]⟩
abbrev S1024x1024 : Shape := ⟨2, ![1024, 1024]⟩
abbrev S1024x768 : Shape := ⟨2, ![1024, 768]⟩
abbrev S768 : Shape := ⟨1, ![768]⟩
abbrev S_ : Shape := ⟨0, ![]⟩

class Facts : Prop where
  bcast_S_S8192x1x512 : S_.BroadcastsInDim S8192x1x512 (![] : Fin 0 → Fin S8192x1x512.rank)
  reducesTo_S8192x1x512_S_d0_1_2 : S8192x1x512.ReducesTo [0, 1, 2] S_
  h_S_ : 0 < S_.numel
  bcast_S_S8192x1x1024 : S_.BroadcastsInDim S8192x1x1024 (![] : Fin 0 → Fin S8192x1x1024.rank)
  reducesTo_S8192x1x1024_S_d0_1_2 : S8192x1x1024.ReducesTo [0, 1, 2] S_
  bcast_S_S512x256 : S_.BroadcastsInDim S512x256 (![] : Fin 0 → Fin S512x256.rank)
  reducesTo_S512x256_S_d0_1 : S512x256.ReducesTo [0, 1] S_
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x768 : S_.BroadcastsInDim S1024x768 (![] : Fin 0 → Fin S1024x768.rank)
  reducesTo_S1024x768_S_d0_1 : S1024x768.ReducesTo [0, 1] S_
  bcast_S_S768 : S_.BroadcastsInDim S768 (![] : Fin 0 → Fin S768.rank)
  reducesTo_S768_S_d0 : S768.ReducesTo [0] S_

variable [Facts]

def fn_part3 {F : FTy → Type} [FloatOps F] (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x768 .f32) (main_arg10 : FVec F S768 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x768 .f32 := Host.absf main_arg9
  let main_cst_16 : FVec F S_ .f32 := constant S_ .f32 0x7F800000#32
  let main_v45 : FVec F S1024x768 .f32 := broadcastInDim S1024x768 ![] bcast_S_S1024x768 main_cst_16
  let main_v46 : IVec S1024x768 1 := cmpf .olt main_v44 main_v45
  let main_c_17 : IVec S_ 1 := constantI S_ 1 1#1
  let main_v47 : IVec S_ 1 := (fun x v => Host.reduce IntOp.andi x v reducesTo_S1024x768_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_v48 main_v49 main_v50

def fn_part1 {F : FTy → Type} [FloatOps F] (main_arg4 : FVec F S768x1024 .f32) (main_arg5 : FVec F S1024 .f32) (main_arg6 : FVec F S1024x1024 .f32) (main_arg7 : FVec F S1024x1024 .f32) (main_arg8 : FVec F S1024 .f32) (main_arg9 : FVec F S1024x768 .f32) (main_arg10 : FVec F S768 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S768x1024 .f32 := Host.absf main_arg4
  let main_cst_6 : FVec F S_ .f32 := constant S_ .f32 0x7F800000#32
  let main_v20 : FVec F S768x1024 .f32 := broadcastInDim S768x1024 ![] bcast_S_S768x1024 main_cst_6
  let main_v21 : IVec S768x1024 1 := cmpf .olt main_v19 main_v20
  let main_c_7 : IVec S_ 1 := constantI S_ 1 1#1
  let main_v22 : IVec S_ 1 := (fun x v => Host.reduce IntOp.andi x v reducesTo_S768x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1x512 .f32) (main_arg1 : FVec F S8192x1x512 .f32) (main_arg2 : FVec F S8192x1x1024 .f32) (main_arg3 : FVec F S512x256 .f32) (main_arg4 : FVec F S768x1024 .f32) (main_arg5 : FVec F S1024 .f32) (main_arg6 : FVec F S1024x1024 .f32) (main_arg7 : FVec F S1024x1024 .f32) (main_arg8 : FVec F S1024 .f32) (main_arg9 : FVec F S1024x768 .f32) (main_arg10 : FVec F S768 .f32) : IVec S_ 1 :=
  let main_v0 : FVec F S8192x1x512 .f32 := Host.absf main_arg0
  let main_cst : FVec F S_ .f32 := constant S_ .f32 0x7F800000#32
  let main_v1 : FVec F S8192x1x512 .f32 := broadcastInDim S8192x1x512 ![] bcast_S_S8192x1x512 main_cst
  let main_v2 : IVec S8192x1x512 1 := cmpf .olt main_v0 main_v1
  let main_c : IVec S_ 1 := constantI S_ 1 1#1
  let main_v3 : IVec S_ 1 := (fun x v => Host.reduce IntOp.andi x v reducesTo_S8192x1x512_S_d0_1_2 h_S_) main_v2 main_c
  let main_v4 : FVec F S8192x1x512 .f32 := Host.absf main_arg1
  let main_cst_0 : FVec F S_ .f32 := constant S_ .f32 0x7F800000#32
  let main_v5 : FVec F S8192x1x512 .f32 := broadcastInDim S8192x1x512 ![] bcast_S_S8192x1x512 main_cst_0
  let main_v6 : IVec S8192x1x512 1 := cmpf .olt main_v4 main_v5
  let main_c_1 : IVec S_ 1 := constantI S_ 1 1#1
  let main_v7 : IVec S_ 1 := (fun x v => Host.reduce IntOp.andi x v reducesTo_S8192x1x512_S_d0_1_2 h_S_) main_v6 main_c_1
  let main_v8 : IVec S_ 1 := andi main_v3 main_v7
  let main_v9 : FVec F S8192x1x1024 .f32 := Host.absf main_arg2
  let main_cst_2 : FVec F S_ .f32 := constant S_ .f32 0x7F800000#32
  let main_v10 : FVec F S8192x1x1024 .f32 := broadcastInDim S8192x1x1024 ![] bcast_S_S8192x1x1024 main_cst_2
  let main_v11 : IVec S8192x1x1024 1 := cmpf .olt main_v9 main_v10
  let main_c_3 : IVec S_ 1 := constantI S_ 1 1#1
  let main_v12 : IVec S_ 1 := (fun x v => Host.reduce IntOp.andi x v reducesTo_S8192x1x1024_S_d0_1_2 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_arg9 main_arg10 main_v13 main_v16
-- ==== Kernel.lean ====
abbrev S8192x1x512 : Shape := ⟨3, ![8192, 1, 512]⟩
abbrev S8192x1x1024 : Shape := ⟨3, ![8192, 1, 1024]⟩
abbrev S512x256 : Shape := ⟨2, ![512, 256]⟩
abbrev S768x1024 : Shape := ⟨2, ![768, 1024]⟩
abbrev S1024 : Shape := ⟨1, ![1024]⟩
abbrev S1024x1024 : Shape := ⟨2, ![1024, 1024]⟩
abbrev S1024x768 : Shape := ⟨2, ![1024, 768]⟩
abbrev S768 : Shape := ⟨1, ![768]⟩
abbrev S_ : Shape := ⟨0, ![]⟩
abbrev S8192x512 : Shape := ⟨2, ![8192, 512]⟩
abbrev S8192x1024 : Shape := ⟨2, ![8192, 1024]⟩
abbrev S1x1024 : Shape := ⟨2, ![1, 1024]⟩
abbrev S1x768 : Shape := ⟨2, ![1, 768]⟩
abbrev S8192x256 : Shape := ⟨2, ![8192, 256]⟩
abbrev S256x512 : Shape := ⟨2, ![256, 512]⟩
abbrev S256x1024 : Shape := ⟨2, ![256, 1024]⟩
abbrev S256x256 : Shape := ⟨2, ![256, 256]⟩
abbrev S256x768 : Shape := ⟨2, ![256, 768]⟩
abbrev S8192x1x256 : Shape := ⟨3, ![8192, 1, 256]⟩

abbrev nBuf : Space → Nat
  | .hbm => 38
  | .vmem => 20
  | .smem => 0
  | _ => 0

abbrev bufTy : (tb : Table) → Fin (tcTables nBuf tb) → BufTy
  | .hbm, ⟨0, _⟩ => ⟨S8192x1x512, .f32⟩
  | .hbm, ⟨1, _⟩ => ⟨S8192x1x512, .f32⟩
  | .hbm, ⟨2, _⟩ => ⟨S8192x1x1024, .f32⟩
  | .hbm, ⟨3, _⟩ => ⟨S512x256, .f32⟩
  | .hbm, ⟨4, _⟩ => ⟨S768x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x768, .f32⟩
  | .hbm, ⟨10, _⟩ => ⟨S768, .f32⟩
  | .hbm, ⟨11, _⟩ => ⟨S512x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S8192x512, .f32⟩
  | .hbm, ⟨22, _⟩ => ⟨S8192x512, .f32⟩
  | .hbm, ⟨23, _⟩ => ⟨S8192x1024, .f32⟩
  | .hbm, ⟨24, _⟩ => ⟨S512x256, .bf16⟩
  | .hbm, ⟨25, _⟩ => ⟨S768x1024, .bf16⟩
  | .hbm, ⟨26, _⟩ => ⟨S1024x1024, .bf16⟩
  | .hbm, ⟨27, _⟩ => ⟨S1024x1024, .bf16⟩
  | .hbm, ⟨28, _⟩ => ⟨S1024x768, .bf16⟩
  | .hbm, ⟨29, _⟩ => ⟨S1x1024, .f32⟩
  | .hbm, ⟨30, _⟩ => ⟨S1x1024, .f32⟩
  | .hbm, ⟨31, _⟩ => ⟨S1x768, .f32⟩
  | .hbm, ⟨32, _⟩ => ⟨S8192x512, .f32⟩
  | .hbm, ⟨33, _⟩ => ⟨S8192x256, .f32⟩
  | .hbm, ⟨34, _⟩ => ⟨S8192x1024, .f32⟩
  | .hbm, ⟨35, _⟩ => ⟨S8192x1x512, .f32⟩
  | .hbm, ⟨36, _⟩ => ⟨S8192x1x256, .f32⟩
  | .hbm, ⟨37, _⟩ => ⟨S8192x1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S512x256, .bf16⟩
  | .local _ .vmem, ⟨7, _⟩ => ⟨S768x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x768, .bf16⟩
  | .local _ .vmem, ⟨13, _⟩ => ⟨S1x768, .f32⟩
  | .local _ .vmem, ⟨14, _⟩ => ⟨S256x512, .f32⟩
  | .local _ .vmem, ⟨15, _⟩ => ⟨S256x512, .f32⟩
  | .local _ .vmem, ⟨16, _⟩ => ⟨S256x256, .f32⟩
  | .local _ .vmem, ⟨17, _⟩ => ⟨S256x256, .f32⟩
  | .local _ .vmem, ⟨18, _⟩ => ⟨S256x1024, .f32⟩
  | .local _ .vmem, ⟨19, _⟩ => ⟨S256x1024, .f32⟩
  | _, _ => ⟨S8192x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  reducesTo_S512x256_S_d0_1 : S512x256.ReducesTo [0, 1] S_
  h_S_ : 0 < S_.numel
  bcast_S_S512x256 : S_.BroadcastsInDim S512x256 (![] : Fin 0 → Fin S512x256.rank)
  shapeCasts_S8192x1x512_S8192x512 : S8192x1x512.ShapeCasts S8192x512
  shapeCasts_S8192x1x1024_S8192x1024 : S8192x1x1024.ShapeCasts S8192x1024
  bitsLt_bf16_f32 : FTy.bits .bf16 < FTy.bits .f32
  shapeCasts_S1024_S1x1024 : S1024.ShapeCasts S1x1024
  shapeCasts_S768_S1x768 : S768.ShapeCasts S1x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S512x256_S512x256_0_0 : ∀ a, (![0, 0] : Fin 2 → Nat) a + S512x256.size a ≤ S512x256.size a
  h_S512x256 : 0 < S512x256.numel
  shapeCasts_S512x256_S512x256 : S512x256.ShapeCasts S512x256
  concatenates_S256x512_S256x256_S256x768_d1 : Shape.Concatenates [S256x512, S256x256] S256x768 1
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  slices_S256x768_o0_0_S256x512 : S256x768.Slices ![0, 0] S256x512
  slices_S256x768_o0_512_S256x256 : S256x768.Slices ![0, 512] S256x256
  inb_S256x256_S256x256_0_0 : ∀ a, (![0, 0] : Fin 2 → Nat) a + S256x256.size a ≤ S256x256.size a
  h_S256x256 : 0 < S256x256.numel
  shapeCasts_S8192x512_S8192x1x512 : S8192x512.ShapeCasts S8192x1x512
  shapeCasts_S8192x256_S8192x1x256 : S8192x256.ShapeCasts S8192x1x256
  shapeCasts_S8192x1024_S8192x1x1024 : S8192x1024.ShapeCasts S8192x1x1024
  dot_S256x512_S512x256_S256x256_1_0_0_1_n_n_wf : DotDims.WF S256x512 S512x256 S256x256 [1] [0] [0] [1] [] []
  dot_S256x768_S768x1024_S256x1024_1_0_0_1_n_n_wf : DotDims.WF S256x768 S768x1024 S256x1024 [1] [0] [0] [1] [] []
  dot_S256x1024_S1024x1024_S256x1024_1_0_0_1_n_n_wf : DotDims.WF S256x1024 S1024x1024 S256x1024 [1] [0] [0] [1] [] []
  dot_S256x1024_S1024x768_S256x768_1_0_0_1_n_n_wf : DotDims.WF S256x1024 S1024x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x1024.size a ≤ S768x1024.size a
  hwx0_4 : ∀ i : grid0.Coords, EltTy.bits .bf16 = 32 ∨ (Rect.block (s := S768x1024) S768x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x768.size a ≤ S1024x768.size a
  hwx0_9 : ∀ i : grid0.Coords, EltTy.bits .bf16 = 32 ∨ (Rect.block (s := S1024x768) S1024x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S8192x512.size a
  hwx0_11 : ∀ i : grid0.Coords, EltTy.bits .f32 = 32 ∨ (Rect.block (s := S8192x512) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S8192x256.size a
  hwx0_12 : ∀ i : grid0.Coords, EltTy.bits .f32 = 32 ∨ (Rect.block (s := S8192x256) S256x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S8192x1024.size a
  hwx0_13 : ∀ i : grid0.Coords, EltTy.bits .f32 = 32 ∨ (Rect.block (s := S8192x1024) S256x1024.size (cc0_transform_13 i) (hinb0_13 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x768_S256x768_1_0_0_1_n_n : DotDims S256x1024 S1024x768 S256x768 where
  lhsContracting := [1]
  rhsContracting := [0]
  lhsNonContracting := [0]
  rhsNonContracting := [1]
  lhsBatch := []
  rhsBatch := []
  wf := dot_S256x1024_S1024x768_S256x768_1_0_0_1_n_n_wf

abbrev win0_0 : Pipeline.Window sig grid0 :=
  Pipeline.Window.ofSpec (Memref.whole main_v7) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S768x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1024x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18_0) S256x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v18_1) S256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v18_2) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x1x512 : Shape := ⟨3, ![8192, 1, 512]⟩
abbrev S8192x1x1024 : Shape := ⟨3, ![8192, 1, 1024]⟩
abbrev S512x256 : Shape := ⟨2, ![512, 256]⟩
abbrev S768x1024 : Shape := ⟨2, ![768, 1024]⟩
abbrev S1024 : Shape := ⟨1, ![1024]⟩
abbrev S1024x1024 : Shape := ⟨2, ![1024, 1024]⟩
abbrev S1024x768 : Shape := ⟨2, ![1024, 768]⟩
abbrev S768 : Shape := ⟨1, ![768]⟩
abbrev S_ : Shape := ⟨0, ![]⟩
abbrev S8192x1x256 : Shape := ⟨3, ![8192, 1, 256]⟩
abbrev S8192x1x768 : Shape := ⟨3, ![8192, 1, 768]⟩
abbrev S1x1x1024 : Shape := ⟨3, ![1, 1, 1024]⟩
abbrev S1x1x768 : Shape := ⟨3, ![1, 1, 768]⟩

abbrev nBuf : Space → Nat
  | .hbm => 46
  | .vmem => 0
  | .smem => 0
  | _ => 0

abbrev bufTy : (tb : Table) → Fin (tcTables nBuf tb) → BufTy
  | .hbm, ⟨0, _⟩ => ⟨S8192x1x512, .f32⟩
  | .hbm, ⟨1, _⟩ => ⟨S8192x1x512, .f32⟩
  | .hbm, ⟨2, _⟩ => ⟨S8192x1x1024, .f32⟩
  | .hbm, ⟨3, _⟩ => ⟨S512x256, .f32⟩
  | .hbm, ⟨4, _⟩ => ⟨S768x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x768, .f32⟩
  | .hbm, ⟨10, _⟩ => ⟨S768, .f32⟩
  | .hbm, ⟨11, _⟩ => ⟨S512x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S512x256, .f32⟩
  | .hbm, ⟨20, _⟩ => ⟨S512x256, .f32⟩
  | .hbm, ⟨21, _⟩ => ⟨S8192x1x256, .f32⟩
  | .hbm, ⟨22, _⟩ => ⟨S8192x1x768, .f32⟩
  | .hbm, ⟨23, _⟩ => ⟨S8192x1x1024, .f32⟩
  | .hbm, ⟨24, _⟩ => ⟨S1x1x1024, .f32⟩
  | .hbm, ⟨25, _⟩ => ⟨S8192x1x1024, .f32⟩
  | .hbm, ⟨26, _⟩ => ⟨S8192x1x1024, .f32⟩
  | .hbm, ⟨27, _⟩ => ⟨S_, .f32⟩
  | .hbm, ⟨28, _⟩ => ⟨S8192x1x1024, .f32⟩
  | .hbm, ⟨29, _⟩ => ⟨S8192x1x1024, .f32⟩
  | .hbm, ⟨30, _⟩ => ⟨S8192x1x1024, .f32⟩
  | .hbm, ⟨31, _⟩ => ⟨S8192x1x1024, .f32⟩
  | .hbm, ⟨32, _⟩ => ⟨S8192x1x1024, .f32⟩
  | .hbm, ⟨33, _⟩ => ⟨S1x1x1024, .f32⟩
  | .hbm, ⟨34, _⟩ => ⟨S8192x1x1024, .f32⟩
  | .hbm, ⟨35, _⟩ => ⟨S8192x1x1024, .f32⟩
  | .hbm, ⟨36, _⟩ => ⟨S8192x1x1024, .f32⟩
  | .hbm, ⟨37, _⟩ => ⟨S8192x1x768, .f32⟩
  | .hbm, ⟨38, _⟩ => ⟨S1x1x768, .f32⟩
  | .hbm, ⟨39, _⟩ => ⟨S8192x1x768, .f32⟩
  | .hbm, ⟨40, _⟩ => ⟨S8192x1x768, .f32⟩
  | .hbm, ⟨41, _⟩ => ⟨S_, .f32⟩
  | .hbm, ⟨42, _⟩ => ⟨S8192x1x768, .f32⟩
  | .hbm, ⟨43, _⟩ => ⟨S8192x1x768, .f32⟩
  | .hbm, ⟨44, _⟩ => ⟨S8192x1x512, .f32⟩
  | .hbm, ⟨45, _⟩ => ⟨S8192x1x256, .f32⟩
  | _, _ => ⟨S8192x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]

class Facts₀ : Prop where
  reducesTo_S512x256_S_d0_1 : S512x256.ReducesTo [0, 1] S_
  h_S_ : 0 < S_.numel
  bcast_S_S512x256 : S_.BroadcastsInDim S512x256 (![] : Fin 0 → Fin S512x256.rank)
  concatenates_S8192x1x512_S8192x1x256_S8192x1x768_d2 : Shape.Concatenates [S8192x1x512, S8192x1x256] S8192x1x768 2
  bcast_S1024_S1x1x1024_2 : S1024.BroadcastsInDim S1x1x1024 (![2] : Fin 1 → Fin S1x1x1024.rank)
  bcast_S1x1x1024_S8192x1x1024_0_1_2 : S1x1x1024.BroadcastsInDim S8192x1x1024 (![0, 1, 2] : Fin 3 → Fin S8192x1x1024.rank)
  bcast_S_S8192x1x1024 : S_.BroadcastsInDim S8192x1x1024 (![] : Fin 0 → Fin S8192x1x1024.rank)
  bcast_S768_S1x1x768_2 : S768.BroadcastsInDim S1x1x768 (![2] : Fin 1 → Fin S1x1x768.rank)
  bcast_S1x1x768_S8192x1x768_0_1_2 : S1x1x768.BroadcastsInDim S8192x1x768 (![0, 1, 2] : Fin 3 → Fin S8192x1x768.rank)
  bcast_S_S8192x1x768 : S_.BroadcastsInDim S8192x1x768 (![] : Fin 0 → Fin S8192x1x768.rank)
  slices_S8192x1x768_S8192x1x512_0_0_0 : S8192x1x768.Slices ![0, 0, 0] S8192x1x512
  slices_S8192x1x768_S8192x1x256_0_0_512 : S8192x1x768.Slices ![0, 0, 512] S8192x1x256
  dot_S8192x1x512_S512x256_S8192x1x256_2_0_01_1_n_n_wf : DotDims.WF S8192x1x512 S512x256 S8192x1x256 [2] [0] [0, 1] [1] [] []
  dot_S8192x1x768_S768x1024_S8192x1x1024_2_0_01_1_n_n_wf : DotDims.WF S8192x1x768 S768x1024 S8192x1x1024 [2] [0] [0, 1] [1] [] []
  dot_S8192x1x1024_S1024x1024_S8192x1x1024_2_0_01_1_n_n_wf : DotDims.WF S8192x1x1024 S1024x1024 S8192x1x1024 [2] [0] [0, 1] [1] [] []
  dot_S8192x1x1024_S1024x768_S8192x1x768_2_0_01_1_n_n_wf : DotDims.WF S8192x1x1024 S1024x768 S8192x1x768 [2] [0] [0, 1] [1] [] []

variable [Facts₀]

def dot_S8192x1x512_S512x256_S8192x1x256_2_0_01_1_n_n : DotDims S8192x1x512 S512x256 S8192x1x256 where
  lhsContracting := [2]
  rhsContracting := [0]
  lhsNonContracting := [0, 1]
  rhsNonContracting := [1]
  lhsBatch := []
  rhsBatch := []
  wf := dot_S8192x1x512_S512x256_S8192x1x256_2_0_01_1_n_n_wf
def dot_S8192x1x768_S768x1024_S8192x1x1024_2_0_01_1_n_n : DotDims S8192x1x768 S768x1024 S8192x1x1024 where
  lhsContracting := [2]
  rhsContracting := [0]
  lhsNonContracting := [0, 1]
  rhsNonContracting := [1]
  lhsBatch := []
  rhsBatch := []
  wf := dot_S8192x1x768_S768x1024_S8192x1x1024_2_0_01_1_n_n_wf
def dot_S8192x1x1024_S1024x1024_S8192x1x1024_2_0_01_1_n_n : DotDims S8192x1x1024 S1024x1024 S8192x1x1024 where
  lhsContracting := [2]
  rhsContracting := [0]
  lhsNonContracting := [0, 1]
  rhsNonContracting := [1]
  lhsBatch := []
  rhsBatch := []
  wf := dot_S8192x1x1024_S1024x1024_S8192x1x1024_2_0_01_1_n_n_wf
def dot_S8192x1x1024_S1024x768_S8192x1x768_2_0_01_1_n_n : DotDims S8192x1x1024 S1024x768 S8192x1x768 where
  lhsContracting := [2]
  rhsContracting := [0]
  lhsNonContracting := [0, 1]
  rhsNonContracting := [1]
  lhsBatch := []
  rhsBatch := []
  wf := dot_S8192x1x1024_S1024x768_S8192x1x768_2_0_01_1_n_n_wf

class Facts : Prop extends Facts₀ where

variable [Facts]
-- ==== Proof.Body.lean ====
/-
  One row of the kernel body against the reference's stages.

  Row `p` of a 256-row block sits at row `b` of the 8192-row arrays.  Under the hypotheses that the body's
  loaded blocks are the argument arrays read there, each stage of the body at `(p, ·)` is the reference's
  stage at `(b, 0, ·)`: the context read `c · W_clip`, the concatenation `[x, context]`, the pre-activation
  `relu ([x, context] · W_pre + b_pre)`, the new state `tanh (pre · Wx + h · Wh + b_rnn)` and the output
  `relu (h' · W_post + b_post)` with its two column slices.  At the extended reals a change of float
  format is the identity and a matrix product is the plain sum over the contracted axis on both sides, so each
  stage is an equality of sums term by term.
-/
import proofs.«157314_j38611755991897_1_alg».proof.Proof.Gen.KernelIdeal.Skeleton
import proofs.«157314_j38611755991897_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.TcCoe Idealize.ShloMosaic.ValueIdx
open Cert.KernelIdeal Cert.KernelIdeal.Gen

/-! ### The product `[256, 512] · [512, 256]` read at `(p, q)` -/

theorem lhs_ctx_0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide), dif_pos (show (0 : Fin S256x512.rank) ∈ dot_S256x512_S512x256_S256x256_1_0_0_1_n_n.lhsNonContracting by decide)]
  rfl
theorem lhs_ctx_1 (i : S256x256.Idx) (q : dot_S256x512_S512x256_S256x256_1_0_0_1_n_n.contr.Idx) :
    (dot_S256x512_S512x256_S256x256_1_0_0_1_n_n.lhsIdx i q 1).val = (q ⟨0, by decide⟩).val :=
  dot_S256x512_S512x256_S256x256_1_0_0_1_n_n.lhsIdx_val_of_single rfl i q
theorem rhs_ctx_0 (i : S256x256.Idx) (q : dot_S256x512_S512x256_S256x256_1_0_0_1_n_n.contr.Idx) :
    (dot_S256x512_S512x256_S256x256_1_0_0_1_n_n.rhsIdx i q 0).val = (q ⟨0, by decide⟩).val :=
  dot_S256x512_S512x256_S256x256_1_0_0_1_n_n.rhsIdx_val_of_single rfl i q
theorem rhs_ctx_1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide), dif_pos (show (1 : Fin S512x256.rank) ∈ dot_S256x512_S512x256_S256x256_1_0_0_1_n_n.rhsNonContracting by decide)]
  rfl

/-- Into the zero accumulator the product at `(p, q)` is the sum over the contracted axis of the row of the left
    factor times the column of the right one. -/
theorem matmul_ctx_apply (l : FVec Ideal S256x512 .bf16) (r : FVec Ideal S512x256 .bf16) (p : Fin 256) (q : Fin 256) :
    matmul dot_S256x512_S512x256_S256x256_1_0_0_1_n_n none l r (constant (F := Ideal) S256x256 .f32 0x00000000#32) (ix2 p q)
      = ∑ k : Fin 512, l (ix2 p k) * r (ix2 k q) := by
  simp only [matmul]
  rw [Ideal.matmul_constant_zero_apply, ← Equiv.sum_comp (ValueIdx.contrEquiv1 dot_S256x512_S512x256_S256x256_1_0_0_1_n_n 512 rfl rfl).symm]
  refine Finset.sum_congr rfl fun k _ => ?_
  have hk := ValueIdx.contrEquiv1_symm_val dot_S256x512_S512x256_S256x256_1_0_0_1_n_n 512 rfl rfl k
  have el : dot_S256x512_S512x256_S256x256_1_0_0_1_n_n.lhsIdx (ix2 p q) ((ValueIdx.contrEquiv1 dot_S256x512_S512x256_S256x256_1_0_0_1_n_n 512 rfl rfl).symm k) = ix2 p k := funext fun a => Fin.ext (by
    match a with
    | ⟨0, _⟩ => exact lhs_ctx_0 _ _
    | ⟨1, _⟩ => exact (lhs_ctx_1 _ _).trans hk)
  have er : dot_S256x512_S512x256_S256x256_1_0_0_1_n_n.rhsIdx (ix2 p q) ((ValueIdx.contrEquiv1 dot_S256x512_S512x256_S256x256_1_0_0_1_n_n 512 rfl rfl).symm k) = ix2 k q := funext fun a => Fin.ext (by
    match a with
    | ⟨0, _⟩ => exact (rhs_ctx_0 _ _).trans hk
    | ⟨1, _⟩ => exact rhs_ctx_1 _ _)
  rw [el, er]

/-! ### The product `[256, 768] · [768, 1024]` read at `(p, q)` -/

theorem lhs_pre_0 (i : S256x1024.Idx) (q : dot_S256x768_S768x1024_S256x1024_1_0_0_1_n_n.contr.Idx) :
    (dot_S256x768_S768x1024_S256x1024_1_0_0_1_n_n.lhsIdx i q 0).val = (i 0).val := by
  unfold DotDims.lhsIdx
  rw [dif_neg (show ¬(0 : Fin S256x768.rank) ∈ dot_S256x768_S768x1024_S256x1024_1_0_0_1_n_n.lhsBatch by decide), dif_pos (show (0 : Fin S256x768.rank) ∈ dot_S256x768_S768x1024_S256x1024_1_0_0_1_n_n.lhsNonContracting by decide)]
  rfl
theorem lhs_pre_1 (i : S256x1024.Idx) (q : dot_S256x768_S768x1024_S256x1024_1_0_0_1_n_n.contr.Idx) :
    (dot_S256x768_S768x1024_S256x1024_1_0_0_1_n_n.lhsIdx i q 1).val = (q ⟨0, by decide⟩).val :=
  dot_S256x768_S768x1024_S256x1024_1_0_0_1_n_n.lhsIdx_val_of_single rfl i q
theorem rhs_pre_0 (i : S256x1024.Idx) (q : dot_S256x768_S768x1024_S256x1024_1_0_0_1_n_n.contr.Idx) :
    (dot_S256x768_S768x1024_S256x1024_1_0_0_1_n_n.rhsIdx i q 0).val = (q ⟨0, by decide⟩).val :=
  dot_S256x768_S768x1024_S256x1024_1_0_0_1_n_n.rhsIdx_val_of_single rfl i q
theorem rhs_pre_1 (i : S256x1024.Idx) (q : dot_S256x768_S768x1024_S256x1024_1_0_0_1_n_n.contr.Idx) :
    (dot_S256x768_S768x1024_S256x1024_1_0_0_1_n_n.rhsIdx i q 1).val = (i 1).val := by
  unfold DotDims.rhsIdx
  rw [dif_neg (show ¬(1 : Fin S768x1024.rank) ∈ dot_S256x768_S768x1024_S256x1024_1_0_0_1_n_n.rhsBatch by decide), dif_pos (show (1 : Fin S768x1024.rank) ∈ dot_S256x768_S768x1024_S256x1024_1_0_0_1_n_n.rhsNonContracting by decide)]
  rfl

/-- Into the zero accumulator the product at `(p, q)` is the sum over the contracted axis of the row of the left
    factor times the column of the right one. -/
theorem matmul_pre_apply (l : FVec Ideal S256x768 .bf16) (r : FVec Ideal S768x1024 .bf16) (p : Fin 256) (q : Fin 1024) :
    matmul dot_S256x768_S768x1024_S256x1024_1_0_0_1_n_n none l r (constant (F := Ideal) S256x1024 .f32 0x00000000#32) (ix2 p q)
      = ∑ k : Fin 768, l (ix2 p k) * r (ix2 k q) := by
  simp only [matmul]
  rw [Ideal.matmul_constant_zero_apply, ← Equiv.sum_comp (ValueIdx.contrEquiv1 dot_S256x768_S768x1024_S256x1024_1_0_0_1_n_n 768 rfl rfl).symm]
  refine Finset.sum_congr rfl fun k _ => ?_
  have hk := ValueIdx.contrEquiv1_symm_val dot_S256x768_S768x1024_S256x1024_1_0_0_1_n_n 768 rfl rfl k
  have el : dot_S256x768_S768x1024_S256x1024_1_0_0_1_n_n.lhsIdx (ix2 p q) ((ValueIdx.contrEquiv1 dot_S256x768_S768x1024_S256x1024_1_0_0_1_n_n 768 rfl rfl).symm k) = ix2 p k := funext fun a => Fin.ext (by
    match a with
    | ⟨0, _⟩ => exact lhs_pre_0 _ _
    | ⟨1, _⟩ => exact (lhs_pre_1 _ _).trans hk)
  have er : dot_S256x768_S768x1024_S256x1024_1_0_0_1_n_n.rhsIdx (ix2 p q) ((ValueIdx.contrEquiv1 dot_S256x768_S768x1024_S256x1024_1_0_0_1_n_n 768 rfl rfl).symm k) = ix2 k q := funext fun a => Fin.ext (by
    match a with
    | ⟨0, _⟩ => exact (rhs_pre_0 _ _).trans hk
    | ⟨1, _⟩ => exact rhs_pre_1 _ _)
  rw [el, er]

/-! ### The product `[256, 1024] · [1024, 1024]` read at `(p, q)` -/

theorem lhs_rnn_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_rnn_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_rnn_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_rnn_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Into the zero accumulator the product at `(p, q)` is the sum over the contracted axis of the row of the left
    factor times the column of the right one. -/
theorem matmul_rnn_apply (l : FVec Ideal S256x1024 .bf16) (r : FVec Ideal S1024x1024 .bf16) (p : Fin 256) (q : Fin 1024) :
    matmul dot_S256x1024_S1024x1024_S256x1024_1_0_0_1_n_n none l r (constant (F := Ideal) S256x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p q) ((ValueIdx.contrEquiv1 dot_S256x1024_S1024x1024_S256x1024_1_0_0_1_n_n 1024 rfl rfl).symm k) = ix2 p k := funext fun a => Fin.ext (by
    match a with
    | ⟨0, _⟩ => exact lhs_rnn_0 _ _
    | ⟨1, _⟩ => exact (lhs_rnn_1 _ _).trans hk)
  have er : dot_S256x1024_S1024x1024_S256x1024_1_0_0_1_n_n.rhsIdx (ix2 p q) ((ValueIdx.contrEquiv1 dot_S256x1024_S1024x1024_S256x1024_1_0_0_1_n_n 1024 rfl rfl).symm k) = ix2 k q := funext fun a => Fin.ext (by
    match a with
    | ⟨0, _⟩ => exact (rhs_rnn_0 _ _).trans hk
    | ⟨1, _⟩ => exact rhs_rnn_1 _ _)
  rw [el, er]

/-! ### The product `[256, 1024] · [1024, 768]` read at `(p, q)` -/

theorem lhs_post_0 (i : S256x768.Idx) (q : dot_S256x1024_S1024x768_S256x768_1_0_0_1_n_n.contr.Idx) :
    (dot_S256x1024_S1024x768_S256x768_1_0_0_1_n_n.lhsIdx i q 0).val = (i 0).val := by
  unfold DotDims.lhsIdx
  rw [dif_neg (show ¬(0 : Fin S256x1024.rank) ∈ dot_S256x1024_S1024x768_S256x768_1_0_0_1_n_n.lhsBatch by decide), dif_pos (show (0 : Fin S256x1024.rank) ∈ dot_S256x1024_S1024x768_S256x768_1_0_0_1_n_n.lhsNonContracting by decide)]
  rfl
theorem lhs_post_1 (i : S256x768.Idx) (q : dot_S256x1024_S1024x768_S256x768_1_0_0_1_n_n.contr.Idx) :
    (dot_S256x1024_S1024x768_S256x768_1_0_0_1_n_n.lhsIdx i q 1).val = (q ⟨0, by decide⟩).val :=
  dot_S256x1024_S1024x768_S256x768_1_0_0_1_n_n.lhsIdx_val_of_single rfl i q
theorem rhs_post_0 (i : S256x768.Idx) (q : dot_S256x1024_S1024x768_S256x768_1_0_0_1_n_n.contr.Idx) :
    (dot_S256x1024_S1024x768_S256x768_1_0_0_1_n_n.rhsIdx i q 0).val = (q ⟨0, by decide⟩).val :=
  dot_S256x1024_S1024x768_S256x768_1_0_0_1_n_n.rhsIdx_val_of_single rfl i q
theorem rhs_post_1 (i : S256x768.Idx) (q : dot_S256x1024_S1024x768_S256x768_1_0_0_1_n_n.contr.Idx) :
    (dot_S256x1024_S1024x768_S256x768_1_0_0_1_n_n.rhsIdx i q 1).val = (i 1).val := by
  unfold DotDims.rhsIdx
  rw [dif_neg (show ¬(1 : Fin S1024x768.rank) ∈ dot_S256x1024_S1024x768_S256x768_1_0_0_1_n_n.rhsBatch by decide), dif_pos (show (1 : Fin S1024x768.rank) ∈ dot_S256x1024_S1024x768_S256x768_1_0_0_1_n_n.rhsNonContracting by decide)]
  rfl

/-- Into the zero accumulator the product at `(p, q)` is the sum over the contracted axis of the row of the left
    factor times the column of the right one. -/
theorem matmul_post_apply (l : FVec Ideal S256x1024 .bf16) (r : FVec Ideal S1024x768 .bf16) (p : Fin 256) (q : Fin 768) :
    matmul dot_S256x1024_S1024x768_S256x768_1_0_0_1_n_n none l r (constant (F := Ideal) S256x768 .f32 0x00000000#32) (ix2 p q)
      = ∑ k : Fin 1024, l (ix2 p k) * r (ix2 k q) := by
  simp only [matmul]
  rw [Ideal.matmul_constant_zero_apply, ← Equiv.sum_comp (ValueIdx.contrEquiv1 dot_S256x1024_S1024x768_S256x768_1_0_0_1_n_n 1024 rfl rfl).symm]
  refine Finset.sum_congr rfl fun k _ => ?_
  have hk := ValueIdx.contrEquiv1_symm_val dot_S256x1024_S1024x768_S256x768_1_0_0_1_n_n 1024 rfl rfl k
  have el : dot_S256x1024_S1024x768_S256x768_1_0_0_1_n_n.lhsIdx (ix2 p q) ((ValueIdx.contrEquiv1 dot_S256x1024_S1024x768_S256x768_1_0_0_1_n_n 1024 rfl rfl).symm k) = ix2 p k := funext fun a => Fin.ext (by
    match a with
    | ⟨0, _⟩ => exact lhs_post_0 _ _
    | ⟨1, _⟩ => exact (lhs_post_1 _ _).trans hk)
  have er : dot_S256x1024_S1024x768_S256x768_1_0_0_1_n_n.rhsIdx (ix2 p q) ((ValueIdx.contrEquiv1 dot_S256x1024_S1024x768_S256x768_1_0_0_1_n_n 1024 rfl rfl).symm k) = ix2 k q := funext fun a => Fin.ext (by
    match a with
    | ⟨0, _⟩ => exact (rhs_post_0 _ _).trans hk
    | ⟨1, _⟩ => exact rhs_post_1 _ _)
  rw [el, er]

/-! ### The reference's operand indices at row `b` -/

theorem lidx_v7 (b : Fin 8192) (d : Fin 256) (k : Fin 512) : Cert.ReferenceIdeal.Read.lidx_main_v7 (ix3 b 0 d) k = ix3 b 0 k :=
  funext fun a => Fin.ext (by match a with | ⟨0, _⟩ => rfl | ⟨1, _⟩ => rfl | ⟨2, _⟩ => rfl)
theorem ridx_v7 (b : Fin 8192) (d : Fin 256) (k : Fin 512) : Cert.ReferenceIdeal.Read.ridx_main_v7 (ix3 b 0 d) k = ix2 k d :=
  funext fun a => Fin.ext (by match a with | ⟨0, _⟩ => rfl | ⟨1, _⟩ => rfl)
theorem lidx_v9 (b : Fin 8192) (g : Fin 1024) (k : Fin 768) : Cert.ReferenceIdeal.Read.lidx_main_v9 (ix3 b 0 g) k = ix3 b 0 k :=
  funext fun a => Fin.ext (by match a with | ⟨0, _⟩ => rfl | ⟨1, _⟩ => rfl | ⟨2, _⟩ => rfl)
theorem ridx_v9 (b : Fin 8192) (g : Fin 1024) (k : Fin 768) : Cert.ReferenceIdeal.Read.ridx_main_v9 (ix3 b 0 g) k = ix2 k g :=
  funext fun a => Fin.ext (by match a with | ⟨0, _⟩ => rfl | ⟨1, _⟩ => rfl)
theorem lidx_v14 (b : Fin 8192) (g : Fin 1024) (k : Fin 1024) : Cert.ReferenceIdeal.Read.lidx_main_v14 (ix3 b 0 g) k = ix3 b 0 k :=
  funext fun a => Fin.ext (by match a with | ⟨0, _⟩ => rfl | ⟨1, _⟩ => rfl | ⟨2, _⟩ => rfl)
theorem ridx_v14 (b : Fin 8192) (g : Fin 1024) (k : Fin 1024) : Cert.ReferenceIdeal.Read.ridx_main_v14 (ix3 b 0 g) k = ix2 k g :=
  funext fun a => Fin.ext (by match a with | ⟨0, _⟩ => rfl | ⟨1, _⟩ => rfl)
theorem lidx_v15 (b : Fin 8192) (g : Fin 1024) (k : Fin 1024) : Cert.ReferenceIdeal.Read.lidx_main_v15 (ix3 b 0 g) k = ix3 b 0 k :=
  funext fun a => Fin.ext (by match a with | ⟨0, _⟩ => rfl | ⟨1, _⟩ => rfl | ⟨2, _⟩ => rfl)
theorem ridx_v15 (b : Fin 8192) (g : Fin 1024) (k : Fin 1024) : Cert.ReferenceIdeal.Read.ridx_main_v15 (ix3 b 0 g) k = ix2 k g :=
  funext fun a => Fin.ext (by match a with | ⟨0, _⟩ => rfl | ⟨1, _⟩ => rfl)
theorem lidx_v21 (b : Fin 8192) (j : Fin 768) (k : Fin 1024) : Cert.ReferenceIdeal.Read.lidx_main_v21 (ix3 b 0 j) k = ix3 b 0 k :=
  funext fun a => Fin.ext (by match a with | ⟨0, _⟩ => rfl | ⟨1, _⟩ => rfl | ⟨2, _⟩ => rfl)
theorem ridx_v21 (b : Fin 8192) (j : Fin 768) (k : Fin 1024) : Cert.ReferenceIdeal.Read.ridx_main_v21 (ix3 b 0 j) k = ix2 k j :=
  funext fun a => Fin.ext (by match a with | ⟨0, _⟩ => rfl | ⟨1, _⟩ => rfl)

/-- The reference's first bias, broadcast to every row, read at `(b, 0, g)`. -/
theorem bias_pre_apply (x5 : FVec Ideal S1024 .f32) (b : Fin 8192) (g : Fin 1024) :
    Cert.ReferenceIdeal.Read.val_main_v11 (F := Ideal) x5 (ix3 b 0 g) = x5 (ix1 g) := by
  rw [Cert.ReferenceIdeal.Read.val_main_v11_apply, Cert.ReferenceIdeal.Read.val_main_v10_apply]
  exact congrArg x5 (funext fun a => Fin.ext (by match a with | ⟨0, _⟩ => rfl))
/-- The reference's second bias, broadcast to every row, read at `(b, 0, g)`. -/
theorem bias_rnn_apply (x8 : FVec Ideal S1024 .f32) (b : Fin 8192) (g : Fin 1024) :
    Cert.ReferenceIdeal.Read.val_main_v18 (F := Ideal) x8 (ix3 b 0 g) = x8 (ix1 g) := by
  rw [Cert.ReferenceIdeal.Read.val_main_v18_apply, Cert.ReferenceIdeal.Read.val_main_v17_apply]
  exact congrArg x8 (funext fun a => Fin.ext (by match a with | ⟨0, _⟩ => rfl))
/-- The reference's output bias, broadcast to every row, read at `(b, 0, j)`. -/
theorem bias_post_apply (x10 : FVec Ideal S768 .f32) (b : Fin 8192) (j : Fin 768) :
    Cert.ReferenceIdeal.Read.val_main_v23 (F := Ideal) x10 (ix3 b 0 j) = x10 (ix1 j) := by
  rw [Cert.ReferenceIdeal.Read.val_main_v23_apply, Cert.ReferenceIdeal.Read.val_main_v22_apply]
  exact congrArg x10 (funext fun a => Fin.ext (by match a with | ⟨0, _⟩ => rfl))

/-- A `[1, n]` row broadcast to `[256, n]` reads the row at every `p`. -/
theorem row_1024_apply (v : FVec Ideal S1x1024 .f32) (h : S1x1024.Broadcasts S256x1024) (p : Fin 256) (g : Fin 1024) :
    broadcastTo S256x1024 v h (ix2 p g) = v (ix2 0 g) :=
  broadcastTo_apply v h (ix2 p g) (ix2 0 g) (fun a => match a with
    | ⟨0, _⟩ => by show 0 = if (1 : Nat) = 1 then 0 else _; rw [if_pos rfl]
    | ⟨1, _⟩ => by show g.val = if (1024 : Nat) = 1 then 0 else g.val; rw [if_neg (by decide)])
theorem row_768_apply (v : FVec Ideal S1x768 .f32) (h : S1x768.Broadcasts S256x768) (p : Fin 256) (j : Fin 768) :
    broadcastTo S256x768 v h (ix2 p j) = v (ix2 0 j) :=
  broadcastTo_apply v h (ix2 p j) (ix2 0 j) (fun a => match a with
    | ⟨0, _⟩ => by show 0 = if (1 : Nat) = 1 then 0 else _; rw [if_pos rfl]
    | ⟨1, _⟩ => by show j.val = if (768 : Nat) = 1 then 0 else j.val; rw [if_neg (by decide)])

/-- The argument arrays and one point's loaded blocks, with row `p` of the blocks at row `b` of the arrays. -/
structure RowAt
    (x0 x1 : FVec Ideal S8192x1x512 .f32) (x2 : FVec Ideal S8192x1x1024 .f32) (x3 : FVec Ideal S512x256 .f32)
    (x4 : FVec Ideal S768x1024 .f32) (x5 : FVec Ideal S1024 .f32) (x6 x7 : FVec Ideal S1024x1024 .f32)
    (x8 : FVec Ideal S1024 .f32) (x9 : FVec Ideal S1024x768 .f32) (x10 : FVec Ideal S768 .f32)
    (xb cb : Vec Ideal S256x512 .f32) (hb : Vec Ideal S256x1024 .f32) (wc : Vec Ideal S512x256 .bf16)
    (wp : Vec Ideal S768x1024 .bf16) (bp : Vec Ideal S1x1024 .f32) (wx wh : Vec Ideal S1024x1024 .bf16)
    (br : Vec Ideal S1x1024 .f32) (wo : Vec Ideal S1024x768 .bf16) (bo : Vec Ideal S1x768 .f32)
    (b : Fin 8192) (p : Fin 256) : Prop where
  hx : ∀ q : Fin 512, xb (ix2 p q) = x0 (ix3 b 0 q)
  hc : ∀ q : Fin 512, cb (ix2 p q) = x1 (ix3 b 0 q)
  hh : ∀ q : Fin 1024, hb (ix2 p q) = x2 (ix3 b 0 q)
  hwc : ∀ (k : Fin 512) (d : Fin 256), wc (ix2 k d) = Cert.ReferenceIdeal.Read.val_main_v6 (F := Ideal) x3 (ix2 k d)
  hwp : ∀ (k : Fin 768) (g : Fin 1024), wp (ix2 k g) = x4 (ix2 k g)
  hbp : ∀ g : Fin 1024, bp (ix2 0 g) = x5 (ix1 g)
  hwx : ∀ (k : Fin 1024) (g : Fin 1024), wx (ix2 k g) = x6 (ix2 k g)
  hwh : ∀ (k : Fin 1024) (g : Fin 1024), wh (ix2 k g) = x7 (ix2 k g)
  hbr : ∀ g : Fin 1024, br (ix2 0 g) = x8 (ix1 g)
  hwo : ∀ (k : Fin 1024) (j : Fin 768), wo (ix2 k j) = x9 (ix2 k j)
  hbo : ∀ j : Fin 768, bo (ix2 0 j) = x10 (ix1 j)

variable {x0 x1 : FVec Ideal S8192x1x512 .f32} {x2 : FVec Ideal S8192x1x1024 .f32} {x3 : FVec Ideal S512x256 .f32}
  {x4 : FVec Ideal S768x1024 .f32} {x5 : FVec Ideal S1024 .f32} {x6 x7 : FVec Ideal S1024x1024 .f32}
  {x8 : FVec Ideal S1024 .f32} {x9 : FVec Ideal S1024x768 .f32} {x10 : FVec Ideal S768 .f32}
  {xb cb : Vec Ideal S256x512 .f32} {hb : Vec Ideal S256x1024 .f32} {wc : Vec Ideal S512x256 .bf16}
  {wp : Vec Ideal S768x1024 .bf16} {bp : Vec Ideal S1x1024 .f32} {wx wh : Vec Ideal S1024x1024 .bf16}
  {br : Vec Ideal S1x1024 .f32} {wo : Vec Ideal S1024x768 .bf16} {bo : Vec Ideal S1x768 .f32}
  {b : Fin 8192} {p : Fin 256}

/-! ### The stages at row `p` -/

/-- The vector `tanh` at an index is the extended reals' `tanh` of the element. -/
theorem tanh_apply {s : Shape} {φ : FTy} (a : FVec Ideal s φ) (i : s.Idx) : tanh a i = Ideal.tanh (a i) := rfl

/-- The context read: row `p` of `c · W_clip` is row `b` of the reference's. -/
theorem ctx_apply (H : RowAt x0 x1 x2 x3 x4 x5 x6 x7 x8 x9 x10 xb cb hb wc wp bp wx wh br wo bo b p)
    (h1 : S256x512.ShapeCasts S256x512) (h2 : FTy.bits .bf16 < FTy.bits .f32) (h3 : S512x256.ShapeCasts S512x256) (d : Fin 256) :
    matmul dot_S256x512_S512x256_S256x256_1_0_0_1_n_n none (truncf .bf16 (shapeCast S256x512 cb h1 : FVec Ideal S256x512 .f32) h2)
        (shapeCast S512x256 wc h3 : FVec Ideal S512x256 .bf16) (constant (F := Ideal) S256x256 .f32 0x00000000#32) (ix2 p d)
      = Cert.ReferenceIdeal.Read.val_main_v7 (F := Ideal) x1 x3 (ix3 b 0 d) := by
  rw [Cert.ReferenceIdeal.Read.val_main_v7_apply, matmul_ctx_apply]
  refine Finset.sum_congr rfl fun k _ => ?_
  rw [lidx_v7, ridx_v7, truncf_apply, shapeCast_self, shapeCast_self, H.hc, H.hwc]

/-- The concatenation `[x, context]`: its first 512 columns are the input's row, the last 256 the context's. -/
theorem cat_apply (H : RowAt x0 x1 x2 x3 x4 x5 x6 x7 x8 x9 x10 xb cb hb wc wp bp wx wh br wo bo b p)
    (u : FVec Ideal S256x256 .f32) (hu : ∀ d : Fin 256, u (ix2 p d) = Cert.ReferenceIdeal.Read.val_main_v7 (F := Ideal) x1 x3 (ix3 b 0 d))
    (h1 : S256x512.ShapeCasts S256x512) (h2 : FTy.bits .bf16 < FTy.bits .f32)
    (hcat : Shape.Concatenates [S256x512, S256x256] S256x768 1) (f : Fin 768) :
    concatenate S256x768 1 [⟨S256x512, truncf .bf16 (shapeCast S256x512 xb h1 : FVec Ideal S256x512 .f32) h2⟩,
        ⟨S256x256, truncf .bf16 u h2⟩] hcat (ix2 p f)
      = Cert.ReferenceIdeal.Read.val_main_v8 (F := Ideal) x0 x1 x3 (ix3 b 0 f) := by
  unfold Cert.ReferenceIdeal.Read.val_main_v8
  by_cases hf : f.val < 512
  · rw [concatenate_pair_apply_left _ _ _ hcat (ix2 p f) rfl (ix2 p ⟨f.val, hf⟩)
        (fun a => match a with | ⟨0, _⟩ => rfl | ⟨1, _⟩ => rfl),
      concatenate_pair_apply_left (s₁ := S8192x1x512) (s₂ := S8192x1x256) _ _ _ _ (ix3 b 0 f) rfl (ix3 b 0 ⟨f.val, hf⟩)
        (fun a => match a with | ⟨0, _⟩ => rfl | ⟨1, _⟩ => rfl | ⟨2, _⟩ => rfl),
      truncf_apply, shapeCast_self, H.hx]
  · have hf' : f.val - 512 < 256 := by have := f.isLt; omega
    rw [concatenate_pair_apply_right _ _ _ hcat (ix2 p f) rfl rfl (ix2 p ⟨f.val - 512, hf'⟩)
        (fun a => match a with | ⟨0, _⟩ => fun _ => rfl | ⟨1, _⟩ => fun h => absurd (Fin.ext rfl) h)
        (by show f.val - 512 + 512 = f.val; omega),
      concatenate_pair_apply_right (s₁ := S8192x1x512) (s₂ := S8192x1x256) _ _ _ _ (ix3 b 0 f) rfl rfl (ix3 b 0 ⟨f.val - 512, hf'⟩)
        (fun a => match a with | ⟨0, _⟩ => fun _ => rfl | ⟨1, _⟩ => fun _ => rfl | ⟨2, _⟩ => fun h => absurd (Fin.ext rfl) h)
        (by show f.val - 512 + 512 = f.val; omega),
      truncf_apply, hu]

/-- The pre-activation `relu ([x, context] · W_pre + b_pre)`. -/
theorem pre_apply (H : RowAt x0 x1 x2 x3 x4 x5 x6 x7 x8 x9 x10 xb cb hb wc wp bp wx wh br wo bo b p)
    (cat : FVec Ideal S256x768 .bf16) (hcat : ∀ f : Fin 768, cat (ix2 p f) = Cert.ReferenceIdeal.Read.val_main_v8 (F := Ideal) x0 x1 x3 (ix3 b 0 f))
    (h1 : S768x1024.ShapeCasts S768x1024) (h2 : S1x1024.ShapeCasts S1x1024) (h3 : S1x1024.Broadcasts S256x1024) (g : Fin 1024) :
    maximumf (addf (matmul dot_S256x768_S768x1024_S256x1024_1_0_0_1_n_n none cat (shapeCast S768x1024 wp h1 : FVec Ideal S768x1024 .bf16)
          (constant (F := Ideal) S256x1024 .f32 0x00000000#32))
        (broadcastTo S256x1024 (shapeCast S1x1024 bp h2 : FVec Ideal S1x1024 .f32) h3))
      (broadcast S256x1024 (Scalar.ofBits (F := Ideal) .f32 0x00000000#32)) (ix2 p g)
      = Cert.ReferenceIdeal.Read.val_main_v13 (F := Ideal) x0 x1 x3 x4 x5 (ix3 b 0 g) := by
  rw [Cert.ReferenceIdeal.Read.val_main_v13_apply, Cert.ReferenceIdeal.Read.val_main_v12_apply, Cert.ReferenceIdeal.Read.val_main_v9_apply, bias_pre_apply, Cert.ReferenceIdeal.Read.val_main_call0_v0_apply,
    Cert.ReferenceIdeal.Read.val_main_call0_cst_apply, maximumf_apply, addf_apply, matmul_pre_apply, row_1024_apply, broadcast_apply]
  simp only [shapeCast_self, Ideal.maximumf_def, Ideal.addf_def]
  rw [H.hbp]
  refine congrArg₂ max (congrArg₂ (· + ·) (Finset.sum_congr rfl fun k _ => ?_) rfl) rfl
  rw [lidx_v9, ridx_v9, hcat, H.hwp]

/-- The new state `tanh (pre · Wx + h · Wh + b_rnn)`, from any block `pre` whose row `p` is row `b` of the reference's
    pre-activation. -/
theorem rnn_apply (H : RowAt x0 x1 x2 x3 x4 x5 x6 x7 x8 x9 x10 xb cb hb wc wp bp wx wh br wo bo b p)
    (pre : FVec Ideal S256x1024 .f32) (hpre : ∀ g : Fin 1024, pre (ix2 p g) = Cert.ReferenceIdeal.Read.val_main_v13 (F := Ideal) x0 x1 x3 x4 x5 (ix3 b 0 g))
    (h0 : FTy.bits .bf16 < FTy.bits .f32) (h1 : S1024x1024.ShapeCasts S1024x1024) (h2 : S256x1024.ShapeCasts S256x1024)
    (h3 : S1x1024.ShapeCasts S1x1024) (h4 : S1x1024.Broadcasts S256x1024) (g : Fin 1024) :
    tanh (addf (addf
          (matmul dot_S256x1024_S1024x1024_S256x1024_1_0_0_1_n_n none (truncf .bf16 pre h0) (shapeCast S1024x1024 wx h1 : FVec Ideal S1024x1024 .bf16)
            (constant (F := Ideal) S256x1024 .f32 0x00000000#32))
          (matmul dot_S256x1024_S1024x1024_S256x1024_1_0_0_1_n_n none (truncf .bf16 (shapeCast S256x1024 hb h2 : FVec Ideal S256x1024 .f32) h0)
            (shapeCast S1024x1024 wh h1 : FVec Ideal S1024x1024 .bf16) (constant (F := Ideal) S256x1024 .f32 0x00000000#32)))
        (broadcastTo S256x1024 (shapeCast S1x1024 br h3 : FVec Ideal S1x1024 .f32) h4)) (ix2 p g)
      = Cert.ReferenceIdeal.Read.val_main_v20 (F := Ideal) x0 x1 x2 x3 x4 x5 x6 x7 x8 (ix3 b 0 g) := by
  rw [Cert.ReferenceIdeal.Read.val_main_v20_apply, Cert.ReferenceIdeal.Read.val_main_v19_apply, Cert.ReferenceIdeal.Read.val_main_v16_apply, Cert.ReferenceIdeal.Read.val_main_v14_apply, Cert.ReferenceIdeal.Read.val_main_v15_apply,
    bias_rnn_apply, tanh_apply, addf_apply, addf_apply, matmul_rnn_apply, matmul_rnn_apply, row_1024_apply]
  simp only [shapeCast_self, Ideal.hostUnary_tanh_def, Ideal.addf_def]
  rw [H.hbr]
  refine congrArg Ideal.tanh (congrArg₂ (· + ·) (congrArg₂ (· + ·) (Finset.sum_congr rfl fun k _ => ?_)
    (Finset.sum_congr rfl fun k _ => ?_)) rfl)
  · rw [lidx_v14, ridx_v14, truncf_apply, hpre, H.hwx]
  · rw [lidx_v15, ridx_v15, truncf_apply, H.hh, H.hwh]

/-- The output `relu (h' · W_post + b_post)`, from any block `v` whose row `p` is row `b` of the reference's new state. -/
theorem post_apply (H : RowAt x0 x1 x2 x3 x4 x5 x6 x7 x8 x9 x10 xb cb hb wc wp bp wx wh br wo bo b p)
    (v : FVec Ideal S256x1024 .f32)
    (hv : ∀ g : Fin 1024, v (ix2 p g) = Cert.ReferenceIdeal.Read.val_main_v20 (F := Ideal) x0 x1 x2 x3 x4 x5 x6 x7 x8 (ix3 b 0 g))
    (h0 : FTy.bits .bf16 < FTy.bits .f32) (h1 : S1024x768.ShapeCasts S1024x768) (h2 : S1x768.ShapeCasts S1x768)
    (h3 : S1x768.Broadcasts S256x768) (j : Fin 768) :
    maximumf (addf (matmul dot_S256x1024_S1024x768_S256x768_1_0_0_1_n_n none (truncf .bf16 v h0) (shapeCast S1024x768 wo h1 : FVec Ideal S1024x768 .bf16)
          (constant (F := Ideal) S256x768 .f32 0x00000000#32))
        (broadcastTo S256x768 (shapeCast S1x768 bo h2 : FVec Ideal S1x768 .f32) h3))
      (broadcast S256x768 (Scalar.ofBits (F := Ideal) .f32 0x00000000#32)) (ix2 p j)
      = Cert.ReferenceIdeal.Read.val_main_v25 (F := Ideal) x0 x1 x2 x3 x4 x5 x6 x7 x8 x9 x10 (ix3 b 0 j) := by
  rw [Cert.ReferenceIdeal.Read.val_main_v25_apply, Cert.ReferenceIdeal.Read.val_main_v24_apply, Cert.ReferenceIdeal.Read.val_main_v21_apply, bias_post_apply, Cert.ReferenceIdeal.Read.val_main_call1_v0_apply,
    Cert.ReferenceIdeal.Read.val_main_call1_cst_apply, maximumf_apply, addf_apply, matmul_post_apply, row_768_apply, broadcast_apply]
  simp only [shapeCast_self, Ideal.maximumf_def, Ideal.addf_def]
  rw [H.hbo]
  refine congrArg₂ max (congrArg₂ (· + ·) (Finset.sum_congr rfl fun k _ => ?_) rfl) rfl
  rw [lidx_v21, ridx_v21, truncf_apply, hv, H.hwo]

/-- The new state: row `p` of the body's `tanh` block is row `b` of the reference's. -/
theorem state_apply (H : RowAt x0 x1 x2 x3 x4 x5 x6 x7 x8 x9 x10 xb cb hb wc wp bp wx wh br wo bo b p) (g : Fin 1024) :
    k0_pay4 (F := Ideal) xb cb hb wc wp bp wx wh br (ix2 p g)
      = Cert.ReferenceIdeal.Read.val_main_v20 (F := Ideal) x0 x1 x2 x3 x4 x5 x6 x7 x8 (ix3 b 0 g) := by
  unfold k0_pay4
  exact rnn_apply H _ (pre_apply H _ (cat_apply H _ (ctx_apply H _ _ _) _ _ _) _ _ _) _ _ _ _ _ g

/-- The output before slicing, from any block `v` whose row `p` is row `b` of the reference's new state. -/
theorem out_apply (H : RowAt x0 x1 x2 x3 x4 x5 x6 x7 x8 x9 x10 xb cb hb wc wp bp wx wh br wo bo b p)
    (v : FVec Ideal S256x1024 .f32)
    (hv : ∀ g : Fin 1024, v (ix2 p g) = Cert.ReferenceIdeal.Read.val_main_v20 (F := Ideal) x0 x1 x2 x3 x4 x5 x6 x7 x8 (ix3 b 0 g))
    (j : Fin 768) :
    k0_pay1 (F := Ideal) v wo bo (ix2 p j)
      = Cert.ReferenceIdeal.Read.val_main_v25 (F := Ideal) x0 x1 x2 x3 x4 x5 x6 x7 x8 x9 x10 (ix3 b 0 j) := by
  unfold k0_pay1
  exact post_apply H v hv _ _ _ _ j

/-- Its first 512 columns. -/
theorem out_lo_apply (H : RowAt x0 x1 x2 x3 x4 x5 x6 x7 x8 x9 x10 xb cb hb wc wp bp wx wh br wo bo b p)
    (v : FVec Ideal S256x1024 .f32)
    (hv : ∀ g : Fin 1024, v (ix2 p g) = Cert.ReferenceIdeal.Read.val_main_v20 (F := Ideal) x0 x1 x2 x3 x4 x5 x6 x7 x8 (ix3 b 0 g))
    (j : Fin 512) :
    k0_pay2 (F := Ideal) v wo bo (ix2 p j)
      = Cert.ReferenceIdeal.Read.val_main_v26 (F := Ideal) x0 x1 x2 x3 x4 x5 x6 x7 x8 x9 x10 (ix3 b 0 j) := by
  have hj : j.val < 768 := by have := j.isLt; omega
  unfold k0_pay2
  rw [Cert.ReferenceIdeal.Read.val_main_v26_apply,
    extractStridedSlice_apply ![0, 0] _ _ (ix2 p j) (ix2 p ⟨j.val, hj⟩) (fun a => match a with
      | ⟨0, _⟩ => by show p.val = 0 + p.val; omega
      | ⟨1, _⟩ => by show j.val = 0 + j.val; omega),
    out_apply H v hv]
  exact congrArg _ (funext fun a => Fin.ext (by match a with | ⟨0, _⟩ => rfl | ⟨1, _⟩ => rfl | ⟨2, _⟩ => rfl))

/-- Its last 256 columns. -/
theorem out_hi_apply (H : RowAt x0 x1 x2 x3 x4 x5 x6 x7 x8 x9 x10 xb cb hb wc wp bp wx wh br wo bo b p)
    (v : FVec Ideal S256x1024 .f32)
    (hv : ∀ g : Fin 1024, v (ix2 p g) = Cert.ReferenceIdeal.Read.val_main_v20 (F := Ideal) x0 x1 x2 x3 x4 x5 x6 x7 x8 (ix3 b 0 g))
    (j : Fin 256) :
    k0_pay3 (F := Ideal) v wo bo (ix2 p j)
      = Cert.ReferenceIdeal.Read.val_main_v27 (F := Ideal) x0 x1 x2 x3 x4 x5 x6 x7 x8 x9 x10 (ix3 b 0 j) := by
  have hj : 512 + j.val < 768 := by have := j.isLt; omega
  unfold k0_pay3
  rw [Cert.ReferenceIdeal.Read.val_main_v27_apply,
    extractStridedSlice_apply ![0, 512] _ _ (ix2 p j) (ix2 p ⟨512 + j.val, hj⟩) (fun a => match a with
      | ⟨0, _⟩ => by show p.val = 0 + p.val; omega
      | ⟨1, _⟩ => by show 512 + j.val = 512 + j.val; rfl),
    out_apply H v hv]
  exact congrArg _ (funext fun a => Fin.ext (by match a with | ⟨0, _⟩ => rfl | ⟨1, _⟩ => rfl | ⟨2, _⟩ => rfl))

end Cert.KernelIdeal.Body

end
-- ==== Proof.Blocks.lean ====
/-
  The body's loaded blocks at grid point `t` are the argument arrays read at the block's place.

  The batch-tiled operands (inputs, center state, module state) are the [8192, 1, n] arguments reshaped to
  [8192, n]; block `t` holds rows `256 t … 256 t + 255`, so row `p` of the block is row `256 t + p` of
  the argument.  The weights are whole-array blocks (block index (0, 0) at every point): the clipped read
  weights `W_read · (1 / max (‖W_read‖, 1))` computed by the host lines before the call, and the other weight
  matrices, each after a change of float format that is the identity on the extended reals; the biases are the
  [n] arguments reshaped to [1, n].
-/
import proofs.«157314_j38611755991897_1_alg».proof.Proof.Gen.KernelIdeal.Frame
import proofs.«157314_j38611755991897_1_alg».proof.Proof.Body
import Idealize.ShloMosaic.Lib.StableHlo.Run

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Row `p` of block `t` is row `256 t + p` of the batch. -/
def row (t : Fin cfg0.N) (p : Fin 256) : Fin 8192 :=
  ⟨256 * t.val + p.val, by have h1 := t.isLt; have h2 : cfg0.N = 32 := N_0; have h3 := p.isLt; omega⟩

/-! ## The arrays the region finds -/

/-- The inputs as the region finds them: the [8192, 1, 512] argument reshaped to [8192, 512]. -/
theorem V_v7 (c : Dev nD) : (V m c main_v7 : FVec Ideal S8192x512 .f32)
    = shapeCast S8192x512 (m ((c : Thread nD τ).loc main_arg0)) shapeCasts_S8192x1x512_S8192x512 := by
  show StableHlo.after hostOps0 (fun b => m (c, b)) (Proc.devRef .tc main_v7) = _
  after_results
  rfl

/-- The center state: the [8192, 1, 512] argument reshaped to [8192, 512]. -/
theorem V_v8 (c : Dev nD) : (V m c main_v8 : FVec Ideal S8192x512 .f32)
    = shapeCast S8192x512 (m ((c : Thread nD τ).loc main_arg1)) shapeCasts_S8192x1x512_S8192x512 := by
  show StableHlo.after hostOps0 (fun b => m (c, b)) (Proc.devRef .tc main_v8) = _
  after_results
  rfl

/-- The module state: the [8192, 1, 1024] argument reshaped to [8192, 1024]. -/
theorem V_v9 (c : Dev nD) : (V m c main_v9 : FVec Ideal S8192x1024 .f32)
    = shapeCast S8192x1024 (m ((c : Thread nD τ).loc main_arg2)) shapeCasts_S8192x1x1024_S8192x1024 := by
  show StableHlo.after hostOps0 (fun b => m (c, b)) (Proc.devRef .tc main_v9) = _
  after_results
  rfl

/-- The clipped read weights `W · (1 / max (‖W‖, 1))`, after a change of float format. -/
theorem V_v10 (c : Dev nD) : (V m c main_v10 : FVec Ideal S512x256 .bf16)
    = (truncf (F := Ideal) (s := S512x256) (φ := .f32) .bf16 (Cert.ReferenceIdeal.Read.val_main_v6 (F := Ideal) (m ((c : Thread nD τ).loc main_arg3))) bitsLt_bf16_f32 : FVec Ideal S512x256 .bf16) := by
  show StableHlo.after hostOps0 (fun b => m (c, b)) (Proc.devRef .tc main_v10) = _
  after_results
  rfl

/-- The pre-activation weights, after a change of float format. -/
theorem V_v11 (c : Dev nD) : (V m c main_v11 : FVec Ideal S768x1024 .bf16)
    = (truncf (F := Ideal) (s := S768x1024) (φ := .f32) .bf16 (m ((c : Thread nD τ).loc main_arg4)) bitsLt_bf16_f32 : FVec Ideal S768x1024 .bf16) := by
  show StableHlo.after hostOps0 (fun b => m (c, b)) (Proc.devRef .tc main_v11) = _
  after_results

/-- The input-to-state weights, after a change of float format. -/
theorem V_v12 (c : Dev nD) : (V m c main_v12 : FVec Ideal S1024x1024 .bf16)
    = (truncf (F := Ideal) (s := S1024x1024) (φ := .f32) .bf16 (m ((c : Thread nD τ).loc main_arg6)) bitsLt_bf16_f32 : FVec Ideal S1024x1024 .bf16) := by
  show StableHlo.after hostOps0 (fun b => m (c, b)) (Proc.devRef .tc main_v12) = _
  after_results

/-- The state-to-state weights, after a change of float format. -/
theorem V_v13 (c : Dev nD) : (V m c main_v13 : FVec Ideal S1024x1024 .bf16)
    = (truncf (F := Ideal) (s := S1024x1024) (φ := .f32) .bf16 (m ((c : Thread nD τ).loc main_arg7)) bitsLt_bf16_f32 : FVec Ideal S1024x1024 .bf16) := by
  show StableHlo.after hostOps0 (fun b => m (c, b)) (Proc.devRef .tc main_v13) = _
  after_results

/-- The output weights, after a change of float format. -/
theorem V_v14 (c : Dev nD) : (V m c main_v14 : FVec Ideal S1024x768 .bf16)
    = (truncf (F := Ideal) (s := S1024x768) (φ := .f32) .bf16 (m ((c : Thread nD τ).loc main_arg9)) bitsLt_bf16_f32 : FVec Ideal S1024x768 .bf16) := by
  show StableHlo.after hostOps0 (fun b => m (c, b)) (Proc.devRef .tc main_v14) = _
  after_results

/-- The pre-activation bias: the [1024] argument reshaped to [1, 1024]. -/
theorem V_v15 (c : Dev nD) : (V m c main_v15 : FVec Ideal S1x1024 .f32)
    = shapeCast S1x1024 (m ((c : Thread nD τ).loc main_arg5)) shapeCasts_S1024_S1x1024 := by
  show StableHlo.after hostOps0 (fun b => m (c, b)) (Proc.devRef .tc main_v15) = _
  after_results
  rfl

/-- The recurrent bias: the [1024] argument reshaped to [1, 1024]. -/
theorem V_v16 (c : Dev nD) : (V m c main_v16 : FVec Ideal S1x1024 .f32)
    = shapeCast S1x1024 (m ((c : Thread nD τ).loc main_arg8)) shapeCasts_S1024_S1x1024 := by
  show StableHlo.after hostOps0 (fun b => m (c, b)) (Proc.devRef .tc main_v16) = _
  after_results
  rfl

/-- The output bias: the [768] argument reshaped to [1, 768]. -/
theorem V_v17 (c : Dev nD) : (V m c main_v17 : FVec Ideal S1x768 .f32)
    = shapeCast S1x768 (m ((c : Thread nD τ).loc main_arg10)) shapeCasts_S768_S1x768 := by
  show StableHlo.after hostOps0 (fun b => m (c, b)) (Proc.devRef .tc main_v17) = _
  after_results
  rfl

/-! ## Where each block sits -/

/-- Where each window's block sits at a grid point: the batch-tiled windows at block row `t`, the weights and
    biases at the one whole-array block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## Reshapes read at an index -/

/-- An [8192, 1, 512] array reshaped to [8192, 512], read at `(b, q)`, is the array at `(b, 0, q)`. -/
theorem reshape_rows512 (x : FVec Ideal S8192x1x512 .f32) (b : Fin 8192) (q : Fin 512) :
    shapeCast S8192x512 x shapeCasts_S8192x1x512_S8192x512 (ix2 b q) = x (ix3 b 0 q) :=
  shapeCast_apply x _ (ix2 b q) (ix3 b 0 q) (by
    rw [Shape.rowMajor_val_three, Shape.rowMajor_val_two]
    show (b.val * 1 + 0) * 512 + q.val = b.val * 512 + q.val
    omega)

/-- An [8192, 1, 1024] array reshaped to [8192, 1024], read at `(b, q)`, is the array at `(b, 0, q)`. -/
theorem reshape_rows1024 (x : FVec Ideal S8192x1x1024 .f32) (b : Fin 8192) (q : Fin 1024) :
    shapeCast S8192x1024 x shapeCasts_S8192x1x1024_S8192x1024 (ix2 b q) = x (ix3 b 0 q) :=
  shapeCast_apply x _ (ix2 b q) (ix3 b 0 q) (by
    rw [Shape.rowMajor_val_three, Shape.rowMajor_val_two]
    show (b.val * 1 + 0) * 1024 + q.val = b.val * 1024 + q.val
    omega)

/-- A [1024] array reshaped to [1, 1024], read at `(0, g)`, is the array at `g`. -/
theorem reshape_bias1024 (x : FVec Ideal S1024 .f32) (g : Fin 1024) :
    shapeCast S1x1024 x shapeCasts_S1024_S1x1024 (ix2 0 g) = x (ix1 g) :=
  shapeCast_apply x _ (ix2 0 g) (ix1 g) (by
    rw [Shape.rowMajor_val_one, Shape.rowMajor_val_two]
    show g.val = 0 * 1024 + g.val
    omega)

/-- A [768] array reshaped to [1, 768], read at `(0, j)`, is the array at `j`. -/
theorem reshape_bias768 (x : FVec Ideal S768 .f32) (j : Fin 768) :
    shapeCast S1x768 x shapeCasts_S768_S1x768 (ix2 0 j) = x (ix1 j) :=
  shapeCast_apply x _ (ix2 0 j) (ix1 j) (by
    rw [Shape.rowMajor_val_one, Shape.rowMajor_val_two]
    show j.val = 0 * 768 + j.val
    omega)

/-! ## The blocks -/

/-- Block `t` of the inputs: row `p` is row `256 t + p` of the argument. -/
theorem blk_x (c : Dev nD) (t : Fin cfg0.N) (p : Fin 256) (q : Fin 512) :
    (iblk m c 0 t : Vec Ideal S256x512 .f32) (ix2 p q) = m ((c : Thread nD τ).loc main_arg0) (ix3 (row t p) 0 q) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v7 : FVec Ideal S8192x512 .f32) (((cfg0.win 0).blk t).view.emb (ix2 p q)) = _
  have hemb : ((cfg0.win 0).blk t).view.emb (ix2 p q) = ix2 (row t p) q := by
    funext a; apply Fin.ext
    match a with
    | ⟨0, _⟩ => show win0_0.index t (0 : Fin 2) * 256 + 1 * p.val = 256 * t.val + p.val; omega
    | ⟨1, _⟩ => show win0_0.index t (1 : Fin 2) * 512 + 1 * q.val = q.val; omega
  rw [hemb, V_v7 m c]
  exact reshape_rows512 _ _ _

/-- Block `t` of the center state: row `p` is row `256 t + p` of the argument. -/
theorem blk_c (c : Dev nD) (t : Fin cfg0.N) (p : Fin 256) (q : Fin 512) :
    (iblk m c 1 t : Vec Ideal S256x512 .f32) (ix2 p q) = m ((c : Thread nD τ).loc main_arg1) (ix3 (row t p) 0 q) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v8 : FVec Ideal S8192x512 .f32) (((cfg0.win 1).blk t).view.emb (ix2 p q)) = _
  have hemb : ((cfg0.win 1).blk t).view.emb (ix2 p q) = ix2 (row t p) q := by
    funext a; apply Fin.ext
    match a with
    | ⟨0, _⟩ => show win0_1.index t (0 : Fin 2) * 256 + 1 * p.val = 256 * t.val + p.val; omega
    | ⟨1, _⟩ => show win0_1.index t (1 : Fin 2) * 512 + 1 * q.val = q.val; omega
  rw [hemb, V_v8 m c]
  exact reshape_rows512 _ _ _

/-- Block `t` of the module state: row `p` is row `256 t + p` of the argument. -/
theorem blk_h (c : Dev nD) (t : Fin cfg0.N) (p : Fin 256) (q : Fin 1024) :
    (iblk m c 2 t : Vec Ideal S256x1024 .f32) (ix2 p q) = m ((c : Thread nD τ).loc main_arg2) (ix3 (row t p) 0 q) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v9 : FVec Ideal S8192x1024 .f32) (((cfg0.win 2).blk t).view.emb (ix2 p q)) = _
  have hemb : ((cfg0.win 2).blk t).view.emb (ix2 p q) = ix2 (row t p) q := by
    funext a; apply Fin.ext
    match a with
    | ⟨0, _⟩ => show win0_2.index t (0 : Fin 2) * 256 + 1 * p.val = 256 * t.val + p.val; omega
    | ⟨1, _⟩ => show win0_2.index t (1 : Fin 2) * 1024 + 1 * q.val = q.val; omega
  rw [hemb, V_v9 m c]
  exact reshape_rows1024 _ _ _

/-- The read weights' block is the whole clipped matrix. -/
theorem blk_wc (c : Dev nD) (t : Fin cfg0.N) (k : Fin 512) (d : Fin 256) :
    (iblk m c 3 t : Vec Ideal S512x256 .bf16) (ix2 k d)
      = Cert.ReferenceIdeal.Read.val_main_v6 (F := Ideal) (m ((c : Thread nD τ).loc main_arg3)) (ix2 k d) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v10 : FVec Ideal S512x256 .bf16) (((cfg0.win 3).blk t).view.emb (ix2 k d)) = _
  have hemb : ((cfg0.win 3).blk t).view.emb (ix2 k d) = ix2 k d := by
    funext a; apply Fin.ext
    match a with
    | ⟨0, _⟩ => show win0_3.index t (0 : Fin 2) * 512 + 1 * k.val = k.val; omega
    | ⟨1, _⟩ => show win0_3.index t (1 : Fin 2) * 256 + 1 * d.val = d.val; omega
  rw [hemb, V_v10 m c]
  exact truncf_apply _ _ _

/-- The pre-activation weights' block is the whole matrix. -/
theorem blk_wp (c : Dev nD) (t : Fin cfg0.N) (k : Fin 768) (g : Fin 1024) :
    (iblk m c 4 t : Vec Ideal S768x1024 .bf16) (ix2 k g) = m ((c : Thread nD τ).loc main_arg4) (ix2 k g) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v11 : FVec Ideal S768x1024 .bf16) (((cfg0.win 4).blk t).view.emb (ix2 k g)) = _
  have hemb : ((cfg0.win 4).blk t).view.emb (ix2 k g) = ix2 k g := by
    funext a; apply Fin.ext
    match a with
    | ⟨0, _⟩ => show win0_4.index t (0 : Fin 2) * 768 + 1 * k.val = k.val; omega
    | ⟨1, _⟩ => show win0_4.index t (1 : Fin 2) * 1024 + 1 * g.val = g.val; omega
  rw [hemb, V_v11 m c]
  exact truncf_apply _ _ _

/-- The pre-activation bias's block is the whole row. -/
theorem blk_bp (c : Dev nD) (t : Fin cfg0.N) (g : Fin 1024) :
    (iblk m c 5 t : Vec Ideal S1x1024 .f32) (ix2 0 g) = m ((c : Thread nD τ).loc main_arg5) (ix1 g) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v15 : FVec Ideal S1x1024 .f32) (((cfg0.win 5).blk t).view.emb (ix2 0 g)) = _
  have hemb : ((cfg0.win 5).blk t).view.emb (ix2 (0 : Fin 1) g) = ix2 (0 : Fin 1) g := by
    funext a; apply Fin.ext
    match a with
    | ⟨0, _⟩ => show win0_5.index t (0 : Fin 2) * 1 + 1 * 0 = 0; omega
    | ⟨1, _⟩ => show win0_5.index t (1 : Fin 2) * 1024 + 1 * g.val = g.val; omega
  rw [hemb, V_v15 m c]
  exact reshape_bias1024 _ _

/-- The input-to-state weights' block is the whole matrix. -/
theorem blk_wx (c : Dev nD) (t : Fin cfg0.N) (k : Fin 1024) (g : Fin 1024) :
    (iblk m c 6 t : Vec Ideal S1024x1024 .bf16) (ix2 k g) = m ((c : Thread nD τ).loc main_arg6) (ix2 k g) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v12 : FVec Ideal S1024x1024 .bf16) (((cfg0.win 6).blk t).view.emb (ix2 k g)) = _
  have hemb : ((cfg0.win 6).blk t).view.emb (ix2 k g) = ix2 k g := by
    funext a; apply Fin.ext
    match a with
    | ⟨0, _⟩ => show win0_6.index t (0 : Fin 2) * 1024 + 1 * k.val = k.val; omega
    | ⟨1, _⟩ => show win0_6.index t (1 : Fin 2) * 1024 + 1 * g.val = g.val; omega
  rw [hemb, V_v12 m c]
  exact truncf_apply _ _ _

/-- The state-to-state weights' block is the whole matrix. -/
theorem blk_wh (c : Dev nD) (t : Fin cfg0.N) (k : Fin 1024) (g : Fin 1024) :
    (iblk m c 7 t : Vec Ideal S1024x1024 .bf16) (ix2 k g) = m ((c : Thread nD τ).loc main_arg7) (ix2 k g) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v13 : FVec Ideal S1024x1024 .bf16) (((cfg0.win 7).blk t).view.emb (ix2 k g)) = _
  have hemb : ((cfg0.win 7).blk t).view.emb (ix2 k g) = ix2 k g := by
    funext a; apply Fin.ext
    match a with
    | ⟨0, _⟩ => show win0_7.index t (0 : Fin 2) * 1024 + 1 * k.val = k.val; omega
    | ⟨1, _⟩ => show win0_7.index t (1 : Fin 2) * 1024 + 1 * g.val = g.val; omega
  rw [hemb, V_v13 m c]
  exact truncf_apply _ _ _

/-- The recurrent bias's block is the whole row. -/
theorem blk_br (c : Dev nD) (t : Fin cfg0.N) (g : Fin 1024) :
    (iblk m c 8 t : Vec Ideal S1x1024 .f32) (ix2 0 g) = m ((c : Thread nD τ).loc main_arg8) (ix1 g) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v16 : FVec Ideal S1x1024 .f32) (((cfg0.win 8).blk t).view.emb (ix2 0 g)) = _
  have hemb : ((cfg0.win 8).blk t).view.emb (ix2 (0 : Fin 1) g) = ix2 (0 : Fin 1) g := by
    funext a; apply Fin.ext
    match a with
    | ⟨0, _⟩ => show win0_8.index t (0 : Fin 2) * 1 + 1 * 0 = 0; omega
    | ⟨1, _⟩ => show win0_8.index t (1 : Fin 2) * 1024 + 1 * g.val = g.val; omega
  rw [hemb, V_v16 m c]
  exact reshape_bias1024 _ _

/-- The output weights' block is the whole matrix. -/
theorem blk_wo (c : Dev nD) (t : Fin cfg0.N) (k : Fin 1024) (j : Fin 768) :
    (iblk m c 9 t : Vec Ideal S1024x768 .bf16) (ix2 k j) = m ((c : Thread nD τ).loc main_arg9) (ix2 k j) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v14 : FVec Ideal S1024x768 .bf16) (((cfg0.win 9).blk t).view.emb (ix2 k j)) = _
  have hemb : ((cfg0.win 9).blk t).view.emb (ix2 k j) = ix2 k j := by
    funext a; apply Fin.ext
    match a with
    | ⟨0, _⟩ => show win0_9.index t (0 : Fin 2) * 1024 + 1 * k.val = k.val; omega
    | ⟨1, _⟩ => show win0_9.index t (1 : Fin 2) * 768 + 1 * j.val = j.val; omega
  rw [hemb, V_v14 m c]
  exact truncf_apply _ _ _

/-- The output bias's block is the whole row. -/
theorem blk_bo (c : Dev nD) (t : Fin cfg0.N) (j : Fin 768) :
    (iblk m c 10 t : Vec Ideal S1x768 .f32) (ix2 0 j) = m ((c : Thread nD τ).loc main_arg10) (ix1 j) := by
  obtain ⟨e0a, e0b, e1a, e1b, e2a, e2b, e3a, e3b, e4a, e4b, e5a, e5b, e6a, e6b, e7a, e7b, e8a, e8b, e9a, e9b, e10a, e10b⟩ := idx_facts t
  unfold iblk
  rw [View.read_apply]
  show (V m c main_v17 : FVec Ideal S1x768 .f32) (((cfg0.win 10).blk t).view.emb (ix2 0 j)) = _
  have hemb : ((cfg0.win 10).blk t).view.emb (ix2 (0 : Fin 1) j) = ix2 (0 : Fin 1) j := by
    funext a; apply Fin.ext
    match a with
    | ⟨0, _⟩ => show win0_10.index t (0 : Fin 2) * 1 + 1 * 0 = 0; omega
    | ⟨1, _⟩ => show win0_10.index t (1 : Fin 2) * 768 + 1 * j.val = j.val; omega
  rw [hemb, V_v17 m c]
  exact reshape_bias768 _ _

/-- At every grid point the blocks the body loads are the argument arrays read at the block's rows. -/
theorem rowAt (c : Dev nD) (t : Fin cfg0.N) (p : Fin 256) :
    Body.RowAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10))
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (row t p) p :=
  ⟨fun q => blk_x m c t p q, fun q => blk_c m c t p q, fun q => blk_h m c t p q,
   fun k d => blk_wc m c t k d, fun k g => blk_wp m c t k g, fun g => blk_bp m c t g,
   fun k g => blk_wx m c t k g, fun k g => blk_wh m c t k g, fun g => blk_br m c t g,
   fun k j => blk_wo m c t k j, fun j => blk_bo m c t j⟩

end Cert.KernelIdeal.Blocks

end
-- ==== Proof.Final.lean ====
/-
  The three arrays the pallas_call leaves, as functions of the arguments.

  Block `t` of each output window holds rows `256 t … 256 t + 255` and all columns; the 32 grid points cover
  the 8192 rows.  Row by row the body computes the reference's stages (the row lemmas), so what point `t`
  writes back is block `t` of one whole-array function: the reference's new state, and the two column slices
  of its output, each read at `(row, 0, column)`.
-/
import proofs.«157314_j38611755991897_1_alg».proof.Proof.Gen.KernelIdeal.Frame
import proofs.«157314_j38611755991897_1_alg».proof.Proof.Body
import proofs.«157314_j38611755991897_1_alg».proof.Proof.Blocks
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The new state as a [8192, 1024] array: the reference's `tanh` stage at `(row, 0, column)`. -/
abbrev stateArr (c : Dev nD) : FVec Ideal S8192x1024 .f32 := fun j =>
  Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (j 0) 0 (j 1))

/-- The first 512 output columns as a [8192, 512] array. -/
abbrev loArr (c : Dev nD) : FVec Ideal S8192x512 .f32 := fun j =>
  Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (j 0) 0 (j 1))

/-- The last 256 output columns as a [8192, 256] array. -/
abbrev hiArr (c : Dev nD) : FVec Ideal S8192x256 .f32 := fun j =>
  Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (j 0) 0 (j 1))

/-- Each output window's block index at point `t` is `(t, 0)`. -/
theorem idx_facts : ∀ t : Fin cfg0.N,
    win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- What point `t` writes back through window 13 is block `t` of the new state. -/
theorem flushed13_eq (c : Dev nD) (t : Fin cfg0.N) :
    (dats m 0 c).flushed 13 t = ((cfg0.win 13).blk t).view.read (Elt Ideal) (stateArr m c) := by
  show (cfg0.win 13).cut (grid0.coords t) ((dats m 0 c).after 13 t) = _
  rw [after0_13]
  unfold out0_13
  rw [View.canon_unit_zero hz]
  simp only [View.ld_unit_zero (S := S256x512) hz, View.ld_unit_zero (S := S256x1024) hz, View.ld_unit_zero (S := S512x256) hz,
    View.ld_unit_zero (S := S768x1024) hz, View.ld_unit_zero (S := S1x1024) hz, View.ld_unit_zero (S := S1024x1024) hz]
  obtain ⟨e0, e1, e2, e3, e4, e5⟩ := idx_facts t
  funext y
  obtain ⟨p, q, rfl⟩ : ∃ (p : Fin 256) (q : Fin 1024), y = ix2 p q := ⟨y 0, y 1, eq_ix2 y⟩
  show k0_pay4 (F := Ideal) (iblk m c 0 t) (iblk m c 1 t) (iblk m c 2 t) (iblk m c 3 t) (iblk m c 4 t) (iblk m c 5 t) (iblk m c 6 t)
      (iblk m c 7 t) (iblk m c 8 t) (ix2 p q) = stateArr m c (((cfg0.win 13).blk t).view.emb (ix2 p q))
  refine (Body.state_apply (Blocks.rowAt m c t p) q).trans ?_
  show _ = Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _
  congr 1
  funext a
  apply Fin.ext
  match a with
  | ⟨0, _⟩ => show 256 * t.val + p.val = win0_13.index t (0 : Fin 2) * 256 + 1 * p.val; rw [e4]; omega
  | ⟨1, _⟩ => rfl
  | ⟨2, _⟩ => show q.val = win0_13.index t (1 : Fin 2) * 1024 + 1 * q.val; rw [e5]; omega

/-- What point `t` writes back through window 11 is block `t` of the first 512 output columns. -/
theorem flushed11_eq (c : Dev nD) (t : Fin cfg0.N) :
    (dats m 0 c).flushed 11 t = ((cfg0.win 11).blk t).view.read (Elt Ideal) (loArr m c) := by
  show (cfg0.win 11).cut (grid0.coords t) ((dats m 0 c).after 11 t) = _
  rw [after0_11]
  unfold out0_11
  rw [View.canon_unit_zero hz]
  simp only [View.ld_unit_zero (S := S256x512) hz, View.ld_unit_zero (S := S256x1024) hz, View.ld_unit_zero (S := S512x256) hz,
    View.ld_unit_zero (S := S768x1024) hz, View.ld_unit_zero (S := S1x1024) hz, View.ld_unit_zero (S := S1024x1024) hz,
    View.ld_unit_zero (S := S1024x768) hz, View.ld_unit_zero (S := S1x768) hz]
  obtain ⟨e0, e1, e2, e3, e4, e5⟩ := idx_facts t
  funext y
  obtain ⟨p, q, rfl⟩ : ∃ (p : Fin 256) (q : Fin 512), y = ix2 p q := ⟨y 0, y 1, eq_ix2 y⟩
  show k0_pay2 (F := Ideal) (k0_pay4 (F := Ideal) (iblk m c 0 t) (iblk m c 1 t) (iblk m c 2 t) (iblk m c 3 t) (iblk m c 4 t) (iblk m c 5 t) (iblk m c 6 t)
      (iblk m c 7 t) (iblk m c 8 t)) (iblk m c 9 t) (iblk m c 10 t) (ix2 p q)
    = loArr m c (((cfg0.win 11).blk t).view.emb (ix2 p q))
  refine (Body.out_lo_apply (Blocks.rowAt m c t p) _ (fun g => Body.state_apply (Blocks.rowAt m c t p) g) q).trans ?_
  show _ = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _
  congr 1
  funext a
  apply Fin.ext
  match a with
  | ⟨0, _⟩ => show 256 * t.val + p.val = win0_11.index t (0 : Fin 2) * 256 + 1 * p.val; rw [e0]; omega
  | ⟨1, _⟩ => rfl
  | ⟨2, _⟩ => show q.val = win0_11.index t (1 : Fin 2) * 512 + 1 * q.val; rw [e1]; omega

/-- What point `t` writes back through window 12 is block `t` of the last 256 output columns. -/
theorem flushed12_eq (c : Dev nD) (t : Fin cfg0.N) :
    (dats m 0 c).flushed 12 t = ((cfg0.win 12).blk t).view.read (Elt Ideal) (hiArr m c) := by
  show (cfg0.win 12).cut (grid0.coords t) ((dats m 0 c).after 12 t) = _
  rw [after0_12]
  unfold out0_12
  rw [View.canon_unit_zero hz]
  simp only [View.ld_unit_zero (S := S256x512) hz, View.ld_unit_zero (S := S256x1024) hz, View.ld_unit_zero (S := S512x256) hz,
    View.ld_unit_zero (S := S768x1024) hz, View.ld_unit_zero (S := S1x1024) hz, View.ld_unit_zero (S := S1024x1024) hz,
    View.ld_unit_zero (S := S1024x768) hz, View.ld_unit_zero (S := S1x768) hz]
  obtain ⟨e0, e1, e2, e3, e4, e5⟩ := idx_facts t
  funext y
  obtain ⟨p, q, rfl⟩ : ∃ (p : Fin 256) (q : Fin 256), y = ix2 p q := ⟨y 0, y 1, eq_ix2 y⟩
  show k0_pay3 (F := Ideal) (k0_pay4 (F := Ideal) (iblk m c 0 t) (iblk m c 1 t) (iblk m c 2 t) (iblk m c 3 t) (iblk m c 4 t) (iblk m c 5 t) (iblk m c 6 t)
      (iblk m c 7 t) (iblk m c 8 t)) (iblk m c 9 t) (iblk m c 10 t) (ix2 p q)
    = hiArr m c (((cfg0.win 12).blk t).view.emb (ix2 p q))
  refine (Body.out_hi_apply (Blocks.rowAt m c t p) _ (fun g => Body.state_apply (Blocks.rowAt m c t p) g) q).trans ?_
  show _ = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _
  congr 1
  funext a
  apply Fin.ext
  match a with
  | ⟨0, _⟩ => show 256 * t.val + p.val = win0_12.index t (0 : Fin 2) * 256 + 1 * p.val; rw [e2]; omega
  | ⟨1, _⟩ => rfl
  | ⟨2, _⟩ => show q.val = win0_12.index t (1 : Fin 2) * 256 + 1 * q.val; rw [e3]; omega

/-! ## The blocks cover the arrays -/

theorem mem_blk11 (t : Fin cfg0.N) (i : S8192x512.Idx) :
    i ∈ ((cfg0.win 11).blk t).view.set ↔ ∀ a : Fin 2, win0_11.index t a * S256x512.size a ≤ (i a).val ∧ (i a).val < win0_11.index t a * S256x512.size a + S256x512.size a := by
  show i ∈ ((View.whole main_v18_0).slice (win0_11.rect t)).set ↔ _
  rw [View.set_slice_whole, Rect.mem_set_unit]
  exact Iff.rfl

theorem mem_blk12 (t : Fin cfg0.N) (i : S8192x256.Idx) :
    i ∈ ((cfg0.win 12).blk t).view.set ↔ ∀ a : Fin 2, win0_12.index t a * S256x256.size a ≤ (i a).val ∧ (i a).val < win0_12.index t a * S256x256.size a + S256x256.size a := by
  show i ∈ ((View.whole main_v18_1).slice (win0_12.rect t)).set ↔ _
  rw [View.set_slice_whole, Rect.mem_set_unit]
  exact Iff.rfl

theorem mem_blk13 (t : Fin cfg0.N) (i : S8192x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v18_2).slice (win0_13.rect t)).set ↔ _
  rw [View.set_slice_whole, Rect.mem_set_unit]
  exact Iff.rfl

/-- Row `r` lies in the block of point `r / 256`. -/
theorem cover11 (i : S8192x512.Idx) : ∃ t : Fin cfg0.N, (cfg0.win 11).flush t = true ∧ i ∈ ((cfg0.win 11).blk t).view.set := by
  have hi0 : (i 0).val < 8192 := (i 0).isLt
  have hi1 : (i 1).val < 512 := (i 1).isLt
  have hN : cfg0.N = 32 := N_0
  obtain ⟨e0, e1, e2, e3, e4, e5⟩ := idx_facts ⟨(i 0).val / 256, by rw [hN]; omega⟩
  refine ⟨⟨(i 0).val / 256, by rw [hN]; omega⟩, flush0_11 _, ?_⟩
  rw [mem_blk11]
  intro a
  match a with
  | ⟨0, _⟩ =>
    show win0_11.index _ (0 : Fin 2) * 256 ≤ (i 0).val ∧ (i 0).val < win0_11.index _ (0 : Fin 2) * 256 + 256
    rw [e0]; show (i 0).val / 256 * 256 ≤ (i 0).val ∧ (i 0).val < (i 0).val / 256 * 256 + 256; omega
  | ⟨1, _⟩ =>
    show win0_11.index _ (1 : Fin 2) * 512 ≤ (i 1).val ∧ (i 1).val < win0_11.index _ (1 : Fin 2) * 512 + 512
    rw [e1]; omega

theorem cover12 (i : S8192x256.Idx) : ∃ t : Fin cfg0.N, (cfg0.win 12).flush t = true ∧ i ∈ ((cfg0.win 12).blk t).view.set := by
  have hi0 : (i 0).val < 8192 := (i 0).isLt
  have hi1 : (i 1).val < 256 := (i 1).isLt
  have hN : cfg0.N = 32 := N_0
  obtain ⟨e0, e1, e2, e3, e4, e5⟩ := idx_facts ⟨(i 0).val / 256, by rw [hN]; omega⟩
  refine ⟨⟨(i 0).val / 256, by rw [hN]; omega⟩, flush0_12 _, ?_⟩
  rw [mem_blk12]
  intro a
  match a with
  | ⟨0, _⟩ =>
    show win0_12.index _ (0 : Fin 2) * 256 ≤ (i 0).val ∧ (i 0).val < win0_12.index _ (0 : Fin 2) * 256 + 256
    rw [e2]; show (i 0).val / 256 * 256 ≤ (i 0).val ∧ (i 0).val < (i 0).val / 256 * 256 + 256; omega
  | ⟨1, _⟩ =>
    show win0_12.index _ (1 : Fin 2) * 256 ≤ (i 1).val ∧ (i 1).val < win0_12.index _ (1 : Fin 2) * 256 + 256
    rw [e3]; omega

theorem cover13 (i : S8192x1024.Idx) : ∃ t : Fin cfg0.N, (cfg0.win 13).flush t = true ∧ i ∈ ((cfg0.win 13).blk t).view.set := by
  have hi0 : (i 0).val < 8192 := (i 0).isLt
  have hi1 : (i 1).val < 1024 := (i 1).isLt
  have hN : cfg0.N = 32 := N_0
  obtain ⟨e0, e1, e2, e3, e4, e5⟩ := idx_facts ⟨(i 0).val / 256, by rw [hN]; omega⟩
  refine ⟨⟨(i 0).val / 256, by rw [hN]; omega⟩, flush0_13 _, ?_⟩
  rw [mem_blk13]
  intro a
  match a with
  | ⟨0, _⟩ =>
    show win0_13.index _ (0 : Fin 2) * 256 ≤ (i 0).val ∧ (i 0).val < win0_13.index _ (0 : Fin 2) * 256 + 256
    rw [e4]; show (i 0).val / 256 * 256 ≤ (i 0).val ∧ (i 0).val < (i 0).val / 256 * 256 + 256; omega
  | ⟨1, _⟩ =>
    show win0_13.index _ (1 : Fin 2) * 1024 ≤ (i 1).val ∧ (i 1).val < win0_13.index _ (1 : Fin 2) * 1024 + 1024
    rw [e5]; omega

/-! ## The arrays after the run -/

theorem final11 (c : Dev nD) : (dats m 0 c).arrAt 11 cfg0.N = loArr m c :=
  (dats m 0 c).arrAt_eq_of_cover 11 (loArr m c) (fun t _ => flushed11_eq m c t) cover11

theorem final12 (c : Dev nD) : (dats m 0 c).arrAt 12 cfg0.N = hiArr m c :=
  (dats m 0 c).arrAt_eq_of_cover 12 (hiArr m c) (fun t _ => flushed12_eq m c t) cover12

theorem final13 (c : Dev nD) : (dats m 0 c).arrAt 13 cfg0.N = stateArr m c :=
  (dats m 0 c).arrAt_eq_of_cover 13 (stateArr m c) (fun t _ => flushed13_eq m c t) cover13

end Cert.KernelIdeal.Final

end
-- ==== Proof.Results.lean ====
/-
  The kernel program's three results as functions of its arguments.

  After the pallas_call the host reshapes each [8192, n] array to [8192, 1, n]; a reshape keeps the row-major
  position, so entry `(r, 0, j)` of a result is entry `(r, j)` of the array the call left — the reference's stage
  at `(r, 0, j)`.
-/
import proofs.«157314_j38611755991897_1_alg».proof.Proof.Final
import Idealize.ShloMosaic.Lib.StableHlo.Run

set_option maxRecDepth 16384

noncomputable section

namespace Cert.KernelIdeal.Results

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-! ## The host lines after the call -/

theorem tail19 (c : Dev nD) :
    Pipeline.afterTail₀ cfgs (dats m) 0 (V0 m) [hostOps1] c main_v19
      = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v19) = _
  after_results
  have e : Pipeline.withArrays (cfgs 0).spec c (V0 m c) (fun w => (dats m 0 c).arrAt w (cfgs 0).N) (Proc.devRef .tc main_v18_0) = Final.loArr m c :=
    (Pipeline.withArrays_arr spec0 launch0.win.arr_inj c _ _ 11).trans (Final.final11 m c)
  funext i
  show shapeCast S8192x1x512 (Pipeline.withArrays (cfgs 0).spec c (V0 m c) (fun w => (dats m 0 c).arrAt w (cfgs 0).N) (Proc.devRef .tc main_v18_0)) shapeCasts_S8192x512_S8192x1x512 i = _
  rw [e]
  have hi1 : (i 1).val < 1 := (i 1).isLt
  refine (shapeCast_apply _ _ i (ix2 (i 0) (i 2)) ?_).trans ?_
  · have h3 : (S8192x1x512.rowMajor i).val = ((i 0).val * 1 + (i 1).val) * 512 + (i 2).val :=
      Shape.rowMajor_val_three (d := ![8192, 1, 512]) i
    have h2 : (S8192x512.rowMajor (ix2 (i 0) (i 2))).val = (i 0).val * 512 + (i 2).val :=
      Shape.rowMajor_val_two (d := ![8192, 512]) (ix2 (i 0) (i 2))
    show (S8192x512.rowMajor (ix2 (i 0) (i 2))).val = (S8192x1x512.rowMajor i).val
    rw [h2, h3]; omega
  · show Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (i 0) 0 (i 2)) = _
    congr 1
    funext a
    match a with
    | ⟨0, _⟩ => rfl
    | ⟨1, _⟩ => exact Fin.ext (by show 0 = (i 1).val; omega)
    | ⟨2, _⟩ => rfl

theorem tail20 (c : Dev nD) :
    Pipeline.afterTail₀ cfgs (dats m) 0 (V0 m) [hostOps1] c main_v20
      = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold Pipeline.afterTail₀
  show StableHlo.after hostOps1 _ (Proc.devRef .tc main_v20) = _
  after_results
  have e : Pipeline.withArrays (cfgs 0).spec c (V0 m c) (fun w => (dats m 0 c).arrAt w (cfgs 0).N) (Proc.devRef .tc main_v18_1) = Final.hiArr m c :=
    (Pipeline.withArrays_arr spec0 launch0.win.arr_inj c _ _ 12).trans (Final.final12 m c)
  funext i
  show shapeCast S8192x1x256 (Pipeline.withArrays (cfgs 0).spec c (V0 m c) (fun w => (dats m 0 c).arrAt w (cfgs 0).N) (Proc.devRef .tc main_v18_1)) shapeCasts_S8192x256_S8192x1x256 i = _
  rw [e]
  have hi1 : (i 1).val < 1 := (i 1).isLt
  refine (shapeCast_apply _ _ i (ix2 (i 0) (i 2)) ?_).trans ?_
  · have h3 : (S8192x1x256.rowMajor i).val = ((i 0).val * 1 + (i 1).val) * 256 + (i 2).val :=
      Shape.rowMajor_val_three (d := ![8192, 1, 256]) i
    have h2 : (S8192x256.rowMajor (ix2 (i 0) (i 2))).val = (i 0).val * 256 + (i 2).val :=
      Shape.rowMajor_val_two (d := ![8192, 256]) (ix2 (i 0) (i 2))
    show (S8192x256.rowMajor (ix2 (i 0) (i 2))).val = (S8192x1x256.rowMajor i).val
    rw [h2, h3]; omega
  · show Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix3 (i 0) 0 (i 2)) = _
    congr 1
    funext a
    match a with
    | ⟨0, _⟩ => rfl
    | ⟨1, _⟩ => exact Fin.ext (by show 0 = (i 1).val; omega)
    | ⟨2, _⟩ => rfl

theorem tail21 (c : Dev nD) :
    Pipeline.afterTail₀ cfgs (dats m) 0 (V0 m) [hostOps1] c main_v21
      = Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.devRef .tc main_v18_2) = Final.stateArr m c :=
    (Pipeline.withArrays_arr spec0 launch0.win.arr_inj c _ _ 13).trans (Final.final13 m c)
  funext i
  show shapeCast S8192x1x1024 (Pipeline.withArrays (cfgs 0).spec c (V0 m c) (fun w => (dats m 0 c).arrAt w (cfgs 0).N) (Proc.devRef .tc main_v18_2)) shapeCasts_S8192x1024_S8192x1x1024 i = _
  rw [e]
  have hi1 : (i 1).val < 1 := (i 1).isLt
  refine (shapeCast_apply _ _ i (ix2 (i 0) (i 2)) ?_).trans ?_
  · have h3 : (S8192x1x1024.rowMajor i).val = ((i 0).val * 1 + (i 1).val) * 1024 + (i 2).val :=
      Shape.rowMajor_val_three (d := ![8192, 1, 1024]) i
    have h2 : (S8192x1024.rowMajor (ix2 (i 0) (i 2))).val = (i 0).val * 1024 + (i 2).val :=
      Shape.rowMajor_val_two (d := ![8192, 1024]) (ix2 (i 0) (i 2))
    show (S8192x1024.rowMajor (ix2 (i 0) (i 2))).val = (S8192x1x1024.rowMajor i).val
    rw [h2, h3]; omega
  · show Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (i 0) 0 (i 2)) = _
    congr 1
    funext a
    match a with
    | ⟨0, _⟩ => rfl
    | ⟨1, _⟩ => exact Fin.ext (by show 0 = (i 1).val; omega)
    | ⟨2, _⟩ => rfl

/-! ## The run -/

/-- Every weakly fair execution of the kernel program ends with its three results at the reference's stages of the
    arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v19) = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v20) = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v21) = Cert.ReferenceIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).2 main_v19 (Pipeline.mem_restRefs_of main_v19 (by decide) (by decide))).trans (tail19 m c),
      ((h c).2 main_v20 (Pipeline.mem_restRefs_of main_v20 (by decide) (by decide))).trans (tail20 m c),
      ((h c).2 main_v21 (Pipeline.mem_restRefs_of main_v21 (by decide) (by decide))).trans (tail21 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.KernelIdeal.Results

end
-- ==== Proof.lean ====
/-
  The certificate of a recurrent module step: a context read `c · W_clip` with the read weights clipped to
  Frobenius norm one, a feed-forward layer `relu ([x, context] · W_pre + b_pre)`, a simple recurrent cell
  `h' = tanh (pre · Wx + h · Wh + b_rnn)` and an output layer `relu (h' · W_post + b_post)` split into its
  first 512 and last 256 columns.

  The kernel computes 256 batch rows per grid point with the weights resident; the reference computes the
  whole batch with einsums.  At the extended reals a change of float format is the identity and every matrix
  product is the plain sum over the contracted axis, so row by row the kernel's body is the reference's
  stages (Body); the blocks the body loads are the arguments read at the block's rows (Blocks); the 32 blocks
  cover the 8192 rows (Final); and the host's reshapes before and after the call keep row-major positions
  (Results).  No law of the extended reals beyond equality of the same sums is used, so the precondition is
  never opened.
-/
import proofs.«157314_j38611755991897_1_alg».proof.Defs
import proofs.«157314_j38611755991897_1_alg».proof.Proof.Gen.Kernel
import proofs.«157314_j38611755991897_1_alg».proof.Proof.Gen.Kernel.Skeleton
import proofs.«157314_j38611755991897_1_alg».proof.Proof.Gen.Kernel.Launch
import proofs.«157314_j38611755991897_1_alg».proof.Proof.Gen.Kernel.Points
import proofs.«157314_j38611755991897_1_alg».proof.Proof.Gen.Kernel.Frame
import proofs.«157314_j38611755991897_1_alg».proof.Proof.Gen.KernelIdeal
import proofs.«157314_j38611755991897_1_alg».proof.Proof.Gen.KernelIdeal.Skeleton
import proofs.«157314_j38611755991897_1_alg».proof.Proof.Gen.KernelIdeal.Launch
import proofs.«157314_j38611755991897_1_alg».proof.Proof.Gen.KernelIdeal.Points
import proofs.«157314_j38611755991897_1_alg».proof.Proof.Gen.KernelIdeal.Frame
import proofs.«157314_j38611755991897_1_alg».proof.Proof.Gen.ReferenceIdeal
import proofs.«157314_j38611755991897_1_alg».proof.Proof.Gen.ReferenceIdeal.Run
import proofs.«157314_j38611755991897_1_alg».proof.Proof.Gen.ReferenceIdeal.Read
import proofs.«157314_j38611755991897_1_alg».proof.Proof.Gen.Pre_finite_inputs
import proofs.«157314_j38611755991897_1_alg».proof.Proof.Results
import Idealize.ShloMosaic.Adequacy
import Idealize.ShloMosaic.Init

noncomputable section

namespace Cert.Proof

open Idealize.ShloMosaic Idealize.SL.Sem

/-- The kernel program terminates without a fault and keeps its arguments. -/
theorem frame_k [Cert.Kernel.Facts] [Cert.Pre_finite_inputs.Facts] : Cert.frame_Kernel :=
  fun m ρ _ => Cert.Kernel.Gen.frame m ρ

/-- So does its reading at the extended reals. -/
theorem frame_ki [Cert.KernelIdeal.Facts] [Cert.Pre_finite_inputs.Facts] : Cert.frame_KernelIdeal :=
  fun m ρ _ => Cert.KernelIdeal.Gen.frame m ρ

/-- The reference is a straight line of host operations: its run, with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- From memories agreeing on the arguments both programs end with the reference's stages of those arguments:
    the first 512 output columns, the last 256, and the new state. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v26 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Results.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10⟩ := hagree c
  refine ⟨(h c).1.trans ?_, (h c).2.1.trans ?_, (h c).2.2.1.trans ?_, (h c).2.2.2⟩
  · rw [Cert.ReferenceIdeal.Read.val_main_v26_eq, h0, h1, h2, h3, h4, h5, h6, h7, h8, h9, h10]
  · rw [Cert.ReferenceIdeal.Read.val_main_v27_eq, h0, h1, h2, h3, h4, h5, h6, h7, h8, h9, h10]
  · rw [Cert.ReferenceIdeal.Read.val_main_v20_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
